-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x3 : Shape := ⟨4, ![16, 128, 128, 3]⟩
abbrev S3x3x3x16 : Shape := ⟨4, ![3, 3, 3, 16]⟩
abbrev S_ : Shape := ⟨0, ![]⟩

class Facts : Prop where
  bcast_S_S16x128x128x3 : S_.BroadcastsInDim S16x128x128x3 (![] : Fin 0 → Fin S16x128x128x3.rank)
  reducesTo_S16x128x128x3_S_d0_1_2_3 : S16x128x128x3.ReducesTo [0, 1, 2, 3] S_
  h_S_ : 0 < S_.numel
  bcast_S_S3x3x3x16 : S_.BroadcastsInDim S3x3x3x16 (![] : Fin 0 → Fin S3x3x3x16.rank)
  reducesTo_S3x3x3x16_S_d0_1_2_3 : S3x3x3x16.ReducesTo [0, 1, 2, 3] S_

variable [Facts]

def fn {F : FTy → Type} [FloatOps F] (main_arg0 : FVec F S16x128x128x3 .f32) (main_arg1 : FVec F S3x3x3x16 .f32) : IVec S_ 1 :=
  let main_v0 : FVec F S16x128x128x3 .f32 := Host.absf main_arg0
  let main_cst : FVec F S_ .f32 := constant S_ .f32 0x7F800000#32
  let main_v1 : FVec F S16x128x128x3 .f32 := broadcastInDim S16x128x128x3 ![] bcast_S_S16x128x128x3 main_cst
  let main_v2 : IVec S16x128x128x3 1 := cmpf .olt main_v0 main_v1
  let main_c : IVec S_ 1 := constantI S_ 1 1#1
  let main_v3 : IVec S_ 1 := (fun x v => Host.reduce IntOp.andi x v reducesTo_S16x128x128x3_S_d0_1_2_3 h_S_) main_v2 main_c
  let main_v4 : FVec F S3x3x3x16 .f32 := Host.absf main_arg1
  let main_cst_0 : FVec F S_ .f32 := constant S_ .f32 0x7F800000#32
  let main_v5 : FVec F S3x3x3x16 .f32 := broadcastInDim S3x3x3x16 ![] bcast_S_S3x3x3x16 main_cst_0
  let main_v6 : IVec S3x3x3x16 1 := cmpf .olt main_v4 main_v5
  let main_c_1 : IVec S_ 1 := constantI S_ 1 1#1
  let main_v7 : IVec S_ 1 := (fun x v => Host.reduce IntOp.andi x v reducesTo_S3x3x3x16_S_d0_1_2_3 h_S_) main_v6 main_c_1
  let main_v8 : IVec S_ 1 := andi main_v3 main_v7
  main_v8
-- ==== Kernel.lean ====
abbrev S16x128x128x3 : Shape := ⟨4, ![16, 128, 128, 3]⟩
abbrev S3x3x3x16 : Shape := ⟨4, ![3, 3, 3, 16]⟩
abbrev S16x128x3x128 : Shape := ⟨4, ![16, 128, 3, 128]⟩
abbrev S16x126x126 : Shape := ⟨3, ![16, 126, 126]⟩
abbrev S1x128x3x128 : Shape := ⟨4, ![1, 128, 3, 128]⟩
abbrev S1x126x126 : Shape := ⟨3, ![1, 126, 126]⟩
abbrev S126x126x16 : Shape := ⟨3, ![126, 126, 16]⟩
abbrev S128x3x128 : Shape := ⟨3, ![128, 3, 128]⟩
abbrev S126x1x126 : Shape := ⟨3, ![126, 1, 126]⟩
abbrev S126x126 : Shape := ⟨2, ![126, 126]⟩
abbrev S126x126x1 : Shape := ⟨3, ![126, 126, 1]⟩
abbrev S1x1x1x16 : Shape := ⟨4, ![1, 1, 1, 16]⟩
abbrev S16 : Shape := ⟨1, ![16]⟩
abbrev S1x1x16 : Shape := ⟨3, ![1, 1, 16]⟩
abbrev S16x126x126x1 : Shape := ⟨4, ![16, 126, 126, 1]⟩

abbrev nBuf : Space → Nat
  | .hbm => 5
  | .vmem => 6
  | .smem => 0
  | _ => 0

abbrev bufTy : (tb : Table) → Fin (tcTables nBuf tb) → BufTy
  | .hbm, ⟨0, _⟩ => ⟨S16x128x128x3, .f32⟩
  | .hbm, ⟨1, _⟩ => ⟨S3x3x3x16, .f32⟩
  | .hbm, ⟨2, _⟩ => ⟨S16x128x3x128, .f32⟩
  | .hbm, ⟨3, _⟩ => ⟨S16x126x126, .f32⟩
  | .hbm, ⟨4, _⟩ => ⟨S16x126x126x1, .f32⟩
  | .local _ .vmem, ⟨0, _⟩ => ⟨S1x128x3x128, .f32⟩
  | .local _ .vmem, ⟨1, _⟩ => ⟨S1x128x3x128, .f32⟩
  | .local _ .vmem, ⟨2, _⟩ => ⟨S3x3x3x16, .f32⟩
  | .local _ .vmem, ⟨3, _⟩ => ⟨S1x126x126, .f32⟩
  | .local _ .vmem, ⟨4, _⟩ => ⟨S1x126x126, .f32⟩
  | .local _ .vmem, ⟨5, _⟩ => ⟨S126x126x16, .f32⟩
  | _, _ => ⟨S16x128x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x126x126 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x128x128x3_S16x128x3x128_0_1_3_2 : S16x128x128x3.Transposes [0, 1, 3, 2] S16x128x3x128
  inb_S1x128x3x128_S1x128x3x128_0_0_0_0 : ∀ a, (![0, 0, 0, 0] : Fin 4 → Nat) a + S1x128x3x128.size a ≤ S1x128x3x128.size a
  h_S1x128x3x128 : 0 < S1x128x3x128.numel
  shapeCasts_S1x128x3x128_S128x3x128 : S1x128x3x128.ShapeCasts S128x3x128
  inb_S3x3x3x16_S3x3x3x16_0_0_0_0 : ∀ a, (![0, 0, 0, 0] : Fin 4 → Nat) a + S3x3x3x16.size a ≤ S3x3x3x16.size a
  h_S3x3x3x16 : 0 < S3x3x3x16.numel
  slices_S128x3x128_o0_0_0_S126x1x126 : S128x3x128.Slices ![0, 0, 0] S126x1x126
  shapeCasts_S126x1x126_S126x126 : S126x1x126.ShapeCasts S126x126
  shapeCasts_S126x126_S126x126x1 : S126x126.ShapeCasts S126x126x1
  slices_S3x3x3x16_o0_0_0_0_S1x1x1x16 : S3x3x3x16.Slices ![0, 0, 0, 0] S1x1x1x16
  shapeCasts_S1x1x1x16_S16 : S1x1x1x16.ShapeCasts S16
  shapeCasts_S16_S1x1x16 : S16.ShapeCasts S1x1x16
  broadcasts_S126x126x1_S126x126x16 : S126x126x1.Broadcasts S126x126x16
  broadcasts_S1x1x16_S126x126x16 : S1x1x16.Broadcasts S126x126x16
  inb_S126x126x16_S126x126x16_0_0_0 : ∀ a, (![0, 0, 0] : Fin 3 → Nat) a + S126x126x16.size a ≤ S126x126x16.size a
  h_S126x126x16 : 0 < S126x126x16.numel
  shapeCasts_S126x126x16_S126x126x16 : S126x126x16.ShapeCasts S126x126x16
  slices_S128x3x128_o0_1_0_S126x1x126 : S128x3x128.Slices ![0, 1, 0] S126x1x126
  slices_S3x3x3x16_o0_0_1_0_S1x1x1x16 : S3x3x3x16.Slices ![0, 0, 1, 0] S1x1x1x16
  slices_S128x3x128_o0_2_0_S126x1x126 : S128x3x128.Slices ![0, 2, 0] S126x1x126
  slices_S3x3x3x16_o0_0_2_0_S1x1x1x16 : S3x3x3x16.Slices ![0, 0, 2, 0] S1x1x1x16
  slices_S128x3x128_o0_0_1_S126x1x126 : S128x3x128.Slices ![0, 0, 1] S126x1x126
  slices_S3x3x3x16_o0_1_0_0_S1x1x1x16 : S3x3x3x16.Slices ![0, 1, 0, 0] S1x1x1x16
  slices_S128x3x128_o0_1_1_S126x1x126 : S128x3x128.Slices ![0, 1, 1] S126x1x126
  slices_S3x3x3x16_o0_1_1_0_S1x1x1x16 : S3x3x3x16.Slices ![0, 1, 1, 0] S1x1x1x16
  slices_S128x3x128_o0_2_1_S126x1x126 : S128x3x128.Slices ![0, 2, 1] S126x1x126
  slices_S3x3x3x16_o0_1_2_0_S1x1x1x16 : S3x3x3x16.Slices ![0, 1, 2, 0] S1x1x1x16
  slices_S128x3x128_o0_0_2_S126x1x126 : S128x3x128.Slices ![0, 0, 2] S126x1x126
  slices_S3x3x3x16_o0_2_0_0_S1x1x1x16 : S3x3x3x16.Slices ![0, 2, 0, 0] S1x1x1x16
  slices_S128x3x128_o0_1_2_S126x1x126 : S128x3x128.Slices ![0, 1, 2] S126x1x126
  slices_S3x3x3x16_o0_2_1_0_S1x1x1x16 : S3x3x3x16.Slices ![0, 2, 1, 0] S1x1x1x16
  slices_S128x3x128_o0_2_2_S126x1x126 : S128x3x128.Slices ![0, 2, 2] S126x1x126
  slices_S3x3x3x16_o0_2_2_0_S1x1x1x16 : S3x3x3x16.Slices ![0, 2, 2, 0] S1x1x1x16
  slices_S128x3x128_o1_0_0_S126x1x126 : S128x3x128.Slices ![1, 0, 0] S126x1x126
  slices_S3x3x3x16_o1_0_0_0_S1x1x1x16 : S3x3x3x16.Slices ![1, 0, 0, 0] S1x1x1x16
  slices_S128x3x128_o1_1_0_S126x1x126 : S128x3x128.Slices ![1, 1, 0] S126x1x126
  slices_S3x3x3x16_o1_0_1_0_S1x1x1x16 : S3x3x3x16.Slices ![1, 0, 1, 0] S1x1x1x16
  slices_S128x3x128_o1_2_0_S126x1x126 : S128x3x128.Slices ![1, 2, 0] S126x1x126
  slices_S3x3x3x16_o1_0_2_0_S1x1x1x16 : S3x3x3x16.Slices ![1, 0, 2, 0] S1x1x1x16
  slices_S128x3x128_o1_0_1_S126x1x126 : S128x3x128.Slices ![1, 0, 1] S126x1x126
  slices_S3x3x3x16_o1_1_0_0_S1x1x1x16 : S3x3x3x16.Slices ![1, 1, 0, 0] S1x1x1x16
  slices_S128x3x128_o1_1_1_S126x1x126 : S128x3x128.Slices ![1, 1, 1] S126x1x126
  slices_S3x3x3x16_o1_1_1_0_S1x1x1x16 : S3x3x3x16.Slices ![1, 1, 1, 0] S1x1x1x16
  slices_S128x3x128_o1_2_1_S126x1x126 : S128x3x128.Slices ![1, 2, 1] S126x1x126
  slices_S3x3x3x16_o1_1_2_0_S1x1x1x16 : S3x3x3x16.Slices ![1, 1, 2, 0] S1x1x1x16
  slices_S128x3x128_o1_0_2_S126x1x126 : S128x3x128.Slices ![1, 0, 2] S126x1x126
  slices_S3x3x3x16_o1_2_0_0_S1x1x1x16 : S3x3x3x16.Slices ![1, 2, 0, 0] S1x1x1x16
  slices_S128x3x128_o1_1_2_S126x1x126 : S128x3x128.Slices ![1, 1, 2] S126x1x126
  slices_S3x3x3x16_o1_2_1_0_S1x1x1x16 : S3x3x3x16.Slices ![1, 2, 1, 0] S1x1x1x16
  slices_S128x3x128_o1_2_2_S126x1x126 : S128x3x128.Slices ![1, 2, 2] S126x1x126
  slices_S3x3x3x16_o1_2_2_0_S1x1x1x16 : S3x3x3x16.Slices ![1, 2, 2, 0] S1x1x1x16
  slices_S128x3x128_o2_0_0_S126x1x126 : S128x3x128.Slices ![2, 0, 0] S126x1x126
  slices_S3x3x3x16_o2_0_0_0_S1x1x1x16 : S3x3x3x16.Slices ![2, 0, 0, 0] S1x1x1x16
  slices_S128x3x128_o2_1_0_S126x1x126 : S128x3x128.Slices ![2, 1, 0] S126x1x126
  slices_S3x3x3x16_o2_0_1_0_S1x1x1x16 : S3x3x3x16.Slices ![2, 0, 1, 0] S1x1x1x16
  slices_S128x3x128_o2_2_0_S126x1x126 : S128x3x128.Slices ![2, 2, 0] S126x1x126
  slices_S3x3x3x16_o2_0_2_0_S1x1x1x16 : S3x3x3x16.Slices ![2, 0, 2, 0] S1x1x1x16
  slices_S128x3x128_o2_0_1_S126x1x126 : S128x3x128.Slices ![2, 0, 1] S126x1x126
  slices_S3x3x3x16_o2_1_0_0_S1x1x1x16 : S3x3x3x16.Slices ![2, 1, 0, 0] S1x1x1x16
  slices_S128x3x128_o2_1_1_S126x1x126 : S128x3x128.Slices ![2, 1, 1] S126x1x126
  slices_S3x3x3x16_o2_1_1_0_S1x1x1x16 : S3x3x3x16.Slices ![2, 1, 1, 0] S1x1x1x16
  slices_S128x3x128_o2_2_1_S126x1x126 : S128x3x128.Slices ![2, 2, 1] S126x1x126
  slices_S3x3x3x16_o2_1_2_0_S1x1x1x16 : S3x3x3x16.Slices ![2, 1, 2, 0] S1x1x1x16
  slices_S128x3x128_o2_0_2_S126x1x126 : S128x3x128.Slices ![2, 0, 2] S126x1x126
  slices_S3x3x3x16_o2_2_0_0_S1x1x1x16 : S3x3x3x16.Slices ![2, 2, 0, 0] S1x1x1x16
  slices_S128x3x128_o2_1_2_S126x1x126 : S128x3x128.Slices ![2, 1, 2] S126x1x126
  slices_S3x3x3x16_o2_2_1_0_S1x1x1x16 : S3x3x3x16.Slices ![2, 2, 1, 0] S1x1x1x16
  slices_S128x3x128_o2_2_2_S126x1x126 : S128x3x128.Slices ![2, 2, 2] S126x1x126
  slices_S3x3x3x16_o2_2_2_0_S1x1x1x16 : S3x3x3x16.Slices ![2, 2, 2, 0] S1x1x1x16
  reduces_S126x126x16_S126x126 : S126x126x16.Reduces [2] S126x126
  inb_S1x126x126_S1x126x126_0_0_0 : ∀ a, (![0, 0, 0] : Fin 3 → Nat) a + S1x126x126.size a ≤ S1x126x126.size a
  h_S1x126x126 : 0 < S1x126x126.numel
  shapeCasts_S1x126x126_S126x126 : S1x126x126.ShapeCasts S126x126
  shapeCasts_S126x126_S1x126x126 : S126x126.ShapeCasts S1x126x126
  bcast_S16x126x126_S16x126x126x1_0_1_2 : S16x126x126.BroadcastsInDim S16x126x126x1 (![0, 1, 2] : Fin 3 → Fin S16x126x126x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3x128.size a ≤ S16x128x3x128.size a
  hwx0_0 : ∀ i : grid0.Coords, EltTy.bits .f32 = 32 ∨ (Rect.block (s := S16x128x3x128) S1x128x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x3x16.size a ≤ S3x3x3x16.size a
  hwx0_1 : ∀ i : grid0.Coords, EltTy.bits .f32 = 32 ∨ (Rect.block (s := S3x3x3x16) S3x3x3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x126x126.size a ≤ S16x126x126.size a
  hwx0_2 : ∀ i : grid0.Coords, EltTy.bits .f32 = 32 ∨ (Rect.block (s := S16x126x126) S1x126x126.size (cc0_transform_2 i) (hinb0_2 i)).WholeWords (EltTy.packing .f32)

variable [Facts₀]

abbrev win0_0 : Pipeline.Window sig grid0 :=
  Pipeline.Window.ofSpec (Memref.whole main_v0) S1x128x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3x3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x126x126.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x128x3 : Shape := ⟨4, ![16, 128, 128, 3]⟩
abbrev S3x3x3x16 : Shape := ⟨4, ![3, 3, 3, 16]⟩
abbrev S16x126x126x3 : Shape := ⟨4, ![16, 126, 126, 3]⟩
abbrev S16x126x126x3x1 : Shape := ⟨5, ![16, 126, 126, 3, 1]⟩
abbrev S1x1x3x16 : Shape := ⟨4, ![1, 1, 3, 16]⟩
abbrev S3x16 : Shape := ⟨2, ![3, 16]⟩
abbrev S1x1x1x3x16 : Shape := ⟨5, ![1, 1, 1, 3, 16]⟩
abbrev S16x126x126x3x16 : Shape := ⟨5, ![16, 126, 126, 3, 16]⟩
abbrev S_ : Shape := ⟨0, ![]⟩
abbrev S16x126x126x16 : Shape := ⟨4, ![16, 126, 126, 16]⟩
abbrev S16x126x126 : Shape := ⟨3, ![16, 126, 126]⟩
abbrev S16x126x126x1 : Shape := ⟨4, ![16, 126, 126, 1]⟩

abbrev nBuf : Space → Nat
  | .hbm => 103
  | .vmem => 0
  | .smem => 0
  | _ => 0

abbrev bufTy : (tb : Table) → Fin (tcTables nBuf tb) → BufTy
  | .hbm, ⟨0, _⟩ => ⟨S16x128x128x3, .f32⟩
  | .hbm, ⟨1, _⟩ => ⟨S3x3x3x16, .f32⟩
  | .hbm, ⟨2, _⟩ => ⟨S16x126x126x3, .f32⟩
  | .hbm, ⟨3, _⟩ => ⟨S16x126x126x3x1, .f32⟩
  | .hbm, ⟨4, _⟩ => ⟨S1x1x3x16, .f32⟩
  | .hbm, ⟨5, _⟩ => ⟨S3x16, .f32⟩
  | .hbm, ⟨6, _⟩ => ⟨S1x1x1x3x16, .f32⟩
  | .hbm, ⟨7, _⟩ => ⟨S16x126x126x3x16, .f32⟩
  | .hbm, ⟨8, _⟩ => ⟨S16x126x126x3x16, .f32⟩
  | .hbm, ⟨9, _⟩ => ⟨S16x126x126x3x16, .f32⟩
  | .hbm, ⟨10, _⟩ => ⟨S_, .f32⟩
  | .hbm, ⟨11, _⟩ => ⟨S16x126x126x16, .f32⟩
  | .hbm, ⟨12, _⟩ => ⟨S16x126x126x3, .f32⟩
  | .hbm, ⟨13, _⟩ => ⟨S16x126x126x3x1, .f32⟩
  | .hbm, ⟨14, _⟩ => ⟨S1x1x3x16, .f32⟩
  | .hbm, ⟨15, _⟩ => ⟨S3x16, .f32⟩
  | .hbm, ⟨16, _⟩ => ⟨S1x1x1x3x16, .f32⟩
  | .hbm, ⟨17, _⟩ => ⟨S16x126x126x3x16, .f32⟩
  | .hbm, ⟨18, _⟩ => ⟨S16x126x126x3x16, .f32⟩
  | .hbm, ⟨19, _⟩ => ⟨S16x126x126x3x16, .f32⟩
  | .hbm, ⟨20, _⟩ => ⟨S_, .f32⟩
  | .hbm, ⟨21, _⟩ => ⟨S16x126x126x16, .f32⟩
  | .hbm, ⟨22, _⟩ => ⟨S16x126x126x16, .f32⟩
  | .hbm, ⟨23, _⟩ => ⟨S16x126x126x3, .f32⟩
  | .hbm, ⟨24, _⟩ => ⟨S16x126x126x3x1, .f32⟩
  | .hbm, ⟨25, _⟩ => ⟨S1x1x3x16, .f32⟩
  | .hbm, ⟨26, _⟩ => ⟨S3x16, .f32⟩
  | .hbm, ⟨27, _⟩ => ⟨S1x1x1x3x16, .f32⟩
  | .hbm, ⟨28, _⟩ => ⟨S16x126x126x3x16, .f32⟩
  | .hbm, ⟨29, _⟩ => ⟨S16x126x126x3x16, .f32⟩
  | .hbm, ⟨30, _⟩ => ⟨S16x126x126x3x16, .f32⟩
  | .hbm, ⟨31, _⟩ => ⟨S_, .f32⟩
  | .hbm, ⟨32, _⟩ => ⟨S16x126x126x16, .f32⟩
  | .hbm, ⟨33, _⟩ => ⟨S16x126x126x16, .f32⟩
  | .hbm, ⟨34, _⟩ => ⟨S16x126x126x3, .f32⟩
  | .hbm, ⟨35, _⟩ => ⟨S16x126x126x3x1, .f32⟩
  | .hbm, ⟨36, _⟩ => ⟨S1x1x3x16, .f32⟩
  | .hbm, ⟨37, _⟩ => ⟨S3x16, .f32⟩
  | .hbm, ⟨38, _⟩ => ⟨S1x1x1x3x16, .f32⟩
  | .hbm, ⟨39, _⟩ => ⟨S16x126x126x3x16, .f32⟩
  | .hbm, ⟨40, _⟩ => ⟨S16x126x126x3x16, .f32⟩
  | .hbm, ⟨41, _⟩ => ⟨S16x126x126x3x16, .f32⟩
  | .hbm, ⟨42, _⟩ => ⟨S_, .f32⟩
  | .hbm, ⟨43, _⟩ => ⟨S16x126x126x16, .f32⟩
  | .hbm, ⟨44, _⟩ => ⟨S16x126x126x16, .f32⟩
  | .hbm, ⟨45, _⟩ => ⟨S16x126x126x3, .f32⟩
  | .hbm, ⟨46, _⟩ => ⟨S16x126x126x3x1, .f32⟩
  | .hbm, ⟨47, _⟩ => ⟨S1x1x3x16, .f32⟩
  | .hbm, ⟨48, _⟩ => ⟨S3x16, .f32⟩
  | .hbm, ⟨49, _⟩ => ⟨S1x1x1x3x16, .f32⟩
  | .hbm, ⟨50, _⟩ => ⟨S16x126x126x3x16, .f32⟩
  | .hbm, ⟨51, _⟩ => ⟨S16x126x126x3x16, .f32⟩
  | .hbm, ⟨52, _⟩ => ⟨S16x126x126x3x16, .f32⟩
  | .hbm, ⟨53, _⟩ => ⟨S_, .f32⟩
  | .hbm, ⟨54, _⟩ => ⟨S16x126x126x16, .f32⟩
  | .hbm, ⟨55, _⟩ => ⟨S16x126x126x16, .f32⟩
  | .hbm, ⟨56, _⟩ => ⟨S16x126x126x3, .f32⟩
  | .hbm, ⟨57, _⟩ => ⟨S16x126x126x3x1, .f32⟩
  | .hbm, ⟨58, _⟩ => ⟨S1x1x3x16, .f32⟩
  | .hbm, ⟨59, _⟩ => ⟨S3x16, .f32⟩
  | .hbm, ⟨60, _⟩ => ⟨S1x1x1x3x16, .f32⟩
  | .hbm, ⟨61, _⟩ => ⟨S16x126x126x3x16, .f32⟩
  | .hbm, ⟨62, _⟩ => ⟨S16x126x126x3x16, .f32⟩
  | .hbm, ⟨63, _⟩ => ⟨S16x126x126x3x16, .f32⟩
  | .hbm, ⟨64, _⟩ => ⟨S_, .f32⟩
  | .hbm, ⟨65, _⟩ => ⟨S16x126x126x16, .f32⟩
  | .hbm, ⟨66, _⟩ => ⟨S16x126x126x16, .f32⟩
  | .hbm, ⟨67, _⟩ => ⟨S16x126x126x3, .f32⟩
  | .hbm, ⟨68, _⟩ => ⟨S16x126x126x3x1, .f32⟩
  | .hbm, ⟨69, _⟩ => ⟨S1x1x3x16, .f32⟩
  | .hbm, ⟨70, _⟩ => ⟨S3x16, .f32⟩
  | .hbm, ⟨71, _⟩ => ⟨S1x1x1x3x16, .f32⟩
  | .hbm, ⟨72, _⟩ => ⟨S16x126x126x3x16, .f32⟩
  | .hbm, ⟨73, _⟩ => ⟨S16x126x126x3x16, .f32⟩
  | .hbm, ⟨74, _⟩ => ⟨S16x126x126x3x16, .f32⟩
  | .hbm, ⟨75, _⟩ => ⟨S_, .f32⟩
  | .hbm, ⟨76, _⟩ => ⟨S16x126x126x16, .f32⟩
  | .hbm, ⟨77, _⟩ => ⟨S16x126x126x16, .f32⟩
  | .hbm, ⟨78, _⟩ => ⟨S16x126x126x3, .f32⟩
  | .hbm, ⟨79, _⟩ => ⟨S16x126x126x3x1, .f32⟩
  | .hbm, ⟨80, _⟩ => ⟨S1x1x3x16, .f32⟩
  | .hbm, ⟨81, _⟩ => ⟨S3x16, .f32⟩
  | .hbm, ⟨82, _⟩ => ⟨S1x1x1x3x16, .f32⟩
  | .hbm, ⟨83, _⟩ => ⟨S16x126x126x3x16, .f32⟩
  | .hbm, ⟨84, _⟩ => ⟨S16x126x126x3x16, .f32⟩
  | .hbm, ⟨85, _⟩ => ⟨S16x126x126x3x16, .f32⟩
  | .hbm, ⟨86, _⟩ => ⟨S_, .f32⟩
  | .hbm, ⟨87, _⟩ => ⟨S16x126x126x16, .f32⟩
  | .hbm, ⟨88, _⟩ => ⟨S16x126x126x16, .f32⟩
  | .hbm, ⟨89, _⟩ => ⟨S16x126x126x3, .f32⟩
  | .hbm, ⟨90, _⟩ => ⟨S16x126x126x3x1, .f32⟩
  | .hbm, ⟨91, _⟩ => ⟨S1x1x3x16, .f32⟩
  | .hbm, ⟨92, _⟩ => ⟨S3x16, .f32⟩
  | .hbm, ⟨93, _⟩ => ⟨S1x1x1x3x16, .f32⟩
  | .hbm, ⟨94, _⟩ => ⟨S16x126x126x3x16, .f32⟩
  | .hbm, ⟨95, _⟩ => ⟨S16x126x126x3x16, .f32⟩
  | .hbm, ⟨96, _⟩ => ⟨S16x126x126x3x16, .f32⟩
  | .hbm, ⟨97, _⟩ => ⟨S_, .f32⟩
  | .hbm, ⟨98, _⟩ => ⟨S16x126x126x16, .f32⟩
  | .hbm, ⟨99, _⟩ => ⟨S16x126x126x16, .f32⟩
  | .hbm, ⟨100, _⟩ => ⟨S_, .f32⟩
  | .hbm, ⟨101, _⟩ => ⟨S16x126x126, .f32⟩
  | .hbm, ⟨102, _⟩ => ⟨S16x126x126x1, .f32⟩
  | _, _ => ⟨S16x128x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_4 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_5 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_7 : Ref sig .tc := ⟨.hbm, 97, rfl⟩
abbrev main_v87 : Ref sig .tc := ⟨.hbm, 98, rfl⟩
abbrev main_v88 : Ref sig .tc := ⟨.hbm, 99, rfl⟩
abbrev main_cst_8 : Ref sig .tc := ⟨.hbm, 100, rfl⟩
abbrev main_v89 : Ref sig .tc := ⟨.hbm, 101, rfl⟩
abbrev main_v90 : Ref sig .tc := ⟨.hbm, 102, rfl⟩

abbrev nD : Nat := 1
abbrev τ : Topo := Topo.v7x

variable {F : FTy → Type} [FloatOps F]

class Facts₀ : Prop where
  slices_S16x128x128x3_S16x126x126x3_0_0_0_0 : S16x128x128x3.Slices ![0, 0, 0, 0] S16x126x126x3
  bcast_S16x126x126x3_S16x126x126x3x1_0_1_2_3 : S16x126x126x3.BroadcastsInDim S16x126x126x3x1 (![0, 1, 2, 3] : Fin 4 → Fin S16x126x126x3x1.rank)
  slices_S3x3x3x16_S1x1x3x16_0_0_0_0 : S3x3x3x16.Slices ![0, 0, 0, 0] S1x1x3x16
  shapeCasts_S1x1x3x16_S3x16 : S1x1x3x16.ShapeCasts S3x16
  bcast_S3x16_S1x1x1x3x16_3_4 : S3x16.BroadcastsInDim S1x1x1x3x16 (![3, 4] : Fin 2 → Fin S1x1x1x3x16.rank)
  bcast_S16x126x126x3x1_S16x126x126x3x16_0_1_2_3_4 : S16x126x126x3x1.BroadcastsInDim S16x126x126x3x16 (![0, 1, 2, 3, 4] : Fin 5 → Fin S16x126x126x3x16.rank)
  bcast_S1x1x1x3x16_S16x126x126x3x16_0_1_2_3_4 : S1x1x1x3x16.BroadcastsInDim S16x126x126x3x16 (![0, 1, 2, 3, 4] : Fin 5 → Fin S16x126x126x3x16.rank)
  reducesTo_S16x126x126x3x16_S16x126x126x16_d3 : S16x126x126x3x16.ReducesTo [3] S16x126x126x16
  h_S_ : 0 < S_.numel
  slices_S16x128x128x3_S16x126x126x3_0_0_1_0 : S16x128x128x3.Slices ![0, 0, 1, 0] S16x126x126x3
  slices_S3x3x3x16_S1x1x3x16_0_1_0_0 : S3x3x3x16.Slices ![0, 1, 0, 0] S1x1x3x16
  slices_S16x128x128x3_S16x126x126x3_0_0_2_0 : S16x128x128x3.Slices ![0, 0, 2, 0] S16x126x126x3
  slices_S3x3x3x16_S1x1x3x16_0_2_0_0 : S3x3x3x16.Slices ![0, 2, 0, 0] S1x1x3x16
  slices_S16x128x128x3_S16x126x126x3_0_1_0_0 : S16x128x128x3.Slices ![0, 1, 0, 0] S16x126x126x3
  slices_S3x3x3x16_S1x1x3x16_1_0_0_0 : S3x3x3x16.Slices ![1, 0, 0, 0] S1x1x3x16
  slices_S16x128x128x3_S16x126x126x3_0_1_1_0 : S16x128x128x3.Slices ![0, 1, 1, 0] S16x126x126x3
  slices_S3x3x3x16_S1x1x3x16_1_1_0_0 : S3x3x3x16.Slices ![1, 1, 0, 0] S1x1x3x16
  slices_S16x128x128x3_S16x126x126x3_0_1_2_0 : S16x128x128x3.Slices ![0, 1, 2, 0] S16x126x126x3
  slices_S3x3x3x16_S1x1x3x16_1_2_0_0 : S3x3x3x16.Slices ![1, 2, 0, 0] S1x1x3x16
  slices_S16x128x128x3_S16x126x126x3_0_2_0_0 : S16x128x128x3.Slices ![0, 2, 0, 0] S16x126x126x3
  slices_S3x3x3x16_S1x1x3x16_2_0_0_0 : S3x3x3x16.Slices ![2, 0, 0, 0] S1x1x3x16
  slices_S16x128x128x3_S16x126x126x3_0_2_1_0 : S16x128x128x3.Slices ![0, 2, 1, 0] S16x126x126x3
  slices_S3x3x3x16_S1x1x3x16_2_1_0_0 : S3x3x3x16.Slices ![2, 1, 0, 0] S1x1x3x16
  slices_S16x128x128x3_S16x126x126x3_0_2_2_0 : S16x128x128x3.Slices ![0, 2, 2, 0] S16x126x126x3
  slices_S3x3x3x16_S1x1x3x16_2_2_0_0 : S3x3x3x16.Slices ![2, 2, 0, 0] S1x1x3x16
  reducesTo_S16x126x126x16_S16x126x126_d3 : S16x126x126x16.ReducesTo [3] S16x126x126
  bcast_S16x126x126_S16x126x126x1_0_1_2 : S16x126x126.BroadcastsInDim S16x126x126x1 (![0, 1, 2] : Fin 3 → Fin S16x126x126x1.rank)

variable [Facts₀]

class Facts : Prop extends Facts₀ where

variable [Facts]
-- ==== Proof.ErosionSpec.lean ====
/-
  Grey-scale erosion of a batch of images by sixteen structuring elements, followed by the largest of the sixteen.

  For images x[n, r, s, c] (16 images, 128 x 128 pixels, 3 channels) and weights w[i, j, c, f] (a 3 x 3 window,
  3 channels, 16 structuring elements) the result is, for h, v < 126,

      ero (n, h, v, f) = min over (i, j, c) of  x[n, h + i, v + j, c] - w[i, j, c, f]
      out (n, h, v, 0) = max over f of ero (n, h, v, f).

  Over the extended reals `min` and `max` are the lattice operations of a linear order, `+inf` is neutral for `min`,
  and the subtraction is the same on both sides, so the value does not depend on how the 27 terms are grouped: one
  program folds them one after the other, the other first takes the least over the three channels of each window offset
  (starting each from `+inf`) and then folds the nine offsets. Both groupings are rearranged here into one fixed form,
  `ero`, by associativity alone: the 27 terms occur in the same order (i, then j, then c) in both.
-/
import Idealize.ShloMosaic.PureOps.Ideal
import Idealize.ShloMosaic.Lib.ValueIdx

noncomputable section

namespace Cert.Erosion

open Idealize.ShloMosaic Idealize.ShloMosaic.ValueIdx

/-- The images, the weights and the result. -/
abbrev SX : Shape := ⟨4, ![16, 128, 128, 3]⟩
abbrev SW : Shape := ⟨4, ![3, 3, 3, 16]⟩
abbrev SO : Shape := ⟨4, ![16, 126, 126, 1]⟩

/-- Row `h + i` of a 128-row image, for a window offset `i < 3` at an output row `h < 126`. -/
abbrev shift (h : Fin 126) (i : Fin 3) : Fin 128 := ⟨h.val + i.val, by have := h.isLt; have := i.isLt; omega⟩

/-- One term: the pixel under window offset (i, j) in channel c, less the weight of structuring element f there. -/
def term (x : FVec Ideal SX .f32) (w : FVec Ideal SW .f32) (n : Fin 16) (h v : Fin 126) (f : Fin 16) (i j c : Fin 3) :
    Ideal .f32 :=
  x (ix4 n (shift h i) (shift v j) c) - w (ix4 i j c f)

/-- The least of the three channels' terms at window offset (i, j). -/
def tap (x : FVec Ideal SX .f32) (w : FVec Ideal SW .f32) (n : Fin 16) (h v : Fin 126) (f : Fin 16) (i j : Fin 3) :
    Ideal .f32 :=
  min (term x w n h v f i j 0) (min (term x w n h v f i j 1) (term x w n h v f i j 2))

/-- The erosion by structuring element f at output pixel (n, h, v): the least of the 27 terms, grouped by window offset. -/
def ero (x : FVec Ideal SX .f32) (w : FVec Ideal SW .f32) (n : Fin 16) (h v : Fin 126) (f : Fin 16) : Ideal .f32 :=
  min (tap x w n h v f 0 0) (min (tap x w n h v f 0 1) (min (tap x w n h v f 0 2)
    (min (tap x w n h v f 1 0) (min (tap x w n h v f 1 1) (min (tap x w n h v f 1 2)
      (min (tap x w n h v f 2 0) (min (tap x w n h v f 2 1) (tap x w n h v f 2 2))))))))

/-- The result: at (n, h, v, 0) the largest of the sixteen erosions, as the fold of `max` from `-inf` over f. -/
def out (x : FVec Ideal SX .f32) (w : FVec Ideal SW .f32) : FVec Ideal SO .f32 := fun q =>
  (Finset.univ : Finset (Fin 16)).fold max (Ideal.ofBits .f32 0xFF800000#32) (fun f => ero x w (q 0) (q 1) (q 2) f)

/-! ## The two groupings -/

/-- `+inf` is neutral for `min`. -/
theorem min_posInf (a : Ideal .f32) : min a (Ideal.ofBits .f32 0x7F800000#32) = a := by
  have e : Ideal.ofBits .f32 0x7F800000#32 = (⊤ : EReal) := by simp [Ideal.ofBits, Ideal.ieee]
  rw [e]; exact min_top_right a

/-- A fold of `min` over three coordinates from `b`, written out. -/
theorem fold_min_fin3 (b : Ideal .f32) (g : Fin 3 → Ideal .f32) :
    (Finset.univ : Finset (Fin 3)).fold min b g = min (g 0) (min (g 1) (min (g 2) b)) := by
  simp only [Fin.univ_succ, Finset.fold_cons, Finset.fold_map, Finset.univ_unique, Finset.fold_singleton]
  rfl

/-- The least over the channels at one window offset, taken as a fold from `+inf`, is `tap`. -/
theorem fold_channels_eq_tap (x : FVec Ideal SX .f32) (w : FVec Ideal SW .f32) (n : Fin 16) (h v : Fin 126) (f : Fin 16)
    (i j : Fin 3) :
    (Finset.univ : Finset (Fin 3)).fold min (Ideal.ofBits .f32 0x7F800000#32) (fun c => term x w n h v f i j c)
      = tap x w n h v f i j := by
  rw [fold_min_fin3, min_posInf]; rfl

/-- The nine window offsets' least values folded one after the other (the second program's grouping) is `ero`. -/
theorem grouped_eq_ero (x : FVec Ideal SX .f32) (w : FVec Ideal SW .f32) (n : Fin 16) (h v : Fin 126) (f : Fin 16) :
    min (min (min (min (min (min (min (min (tap x w n h v f 0 0) (tap x w n h v f 0 1)) (tap x w n h v f 0 2))
      (tap x w n h v f 1 0)) (tap x w n h v f 1 1)) (tap x w n h v f 1 2))
      (tap x w n h v f 2 0)) (tap x w n h v f 2 1)) (tap x w n h v f 2 2)
      = ero x w n h v f := by
  unfold ero
  simp only [min_assoc]

/-- The 27 terms folded one after the other (the first program's running least) is `ero`. -/
theorem running_eq_ero (x : FVec Ideal SX .f32) (w : FVec Ideal SW .f32) (n : Fin 16) (h v : Fin 126) (f : Fin 16) :
    let d := term x w n h v f
    min (min (min (min (min (min (min (min (min (min (min (min (min (min (min (min (min (min (min (min (min (min (min (min
      (min (min (d 0 0 0) (d 0 0 1)) (d 0 0 2)) (d 0 1 0)) (d 0 1 1)) (d 0 1 2)) (d 0 2 0)) (d 0 2 1)) (d 0 2 2))
      (d 1 0 0)) (d 1 0 1)) (d 1 0 2)) (d 1 1 0)) (d 1 1 1)) (d 1 1 2)) (d 1 2 0)) (d 1 2 1)) (d 1 2 2))
      (d 2 0 0)) (d 2 0 1)) (d 2 0 2)) (d 2 1 0)) (d 2 1 1)) (d 2 1 2)) (d 2 2 0)) (d 2 2 1)) (d 2 2 2)
      = ero x w n h v f := by
  intro d
  unfold ero tap
  simp only [min_assoc]
  rfl

end Cert.Erosion

end
-- ==== Proof.KernelBlock.lean ====
/-
  What one grid point of the kernel leaves in its output block, as a value.

  At grid point n the kernel holds image n re-laid as x0[0, r, c, s] (row r, channel c, column s) and all the weights
  x1[i, j, c, f]. It keeps a [126, 126, 16] buffer: the first of the 27 differences
      diff (i, j, c) (h, v, f) = x0[0, h + i, c, v + j] - x1[i, j, c, f]
  is written to it, and each of the other 26, in the order i, then j, then c, replaces it by the elementwise least of
  what it holds and that difference; each time the whole buffer is written and then read back whole, so what is read
  is what was written. Last the largest over f of the buffer is written to the output block at (0, h, v).

  So the block at (0, h, v) is the fold of `max` from `-inf` over f of the running least of the 27 differences, and
  by associativity of `min` (ErosionSpec) that is the erosion's value `out` at (n, h, v, 0) whenever
  x0[0, r, c, s] is pixel (r, s), channel c, of image n.
-/
import proofs.«134567_j62861141344687_1_alg».proof.Proof.Gen.KernelIdeal.Frame
import proofs.«134567_j62861141344687_1_alg».proof.Proof.ErosionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockValue

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-! ## The body's arithmetic in one vocabulary -/

/-- The difference for window offset (i, j) and channel c, as a [126, 126, 16] array: rows i.., channel c, columns j..
    of the image block spread along f, less row (i, j, c, ·) of the weights spread along (h, v). -/
def diff (i j c : Fin 3) (hx : S128x3x128.Slices ![i.val, c.val, j.val] S126x1x126)
    (hw : S3x3x3x16.Slices ![i.val, j.val, c.val, 0] S1x1x1x16)
    (v1 : FVec F S128x3x128 .f32) (v2 : Vec F S3x3x3x16 .f32) : FVec F S126x126x16 .f32 :=
  subf
    (broadcastTo S126x126x16 (shapeCast S126x126x1 (shapeCast S126x126
      (extractStridedSlice S126x1x126 ![i.val, c.val, j.val] v1 hx) shapeCasts_S126x1x126_S126x126)
      shapeCasts_S126x126_S126x126x1) broadcasts_S126x126x1_S126x126x16)
    (broadcastTo S126x126x16 (shapeCast S1x1x16 (shapeCast S16
      (extractStridedSlice S1x1x1x16 ![i.val, j.val, c.val, 0] v2 hw) shapeCasts_S1x1x1x16_S16)
      shapeCasts_S16_S1x1x16) broadcasts_S1x1x16_S126x126x16)

/-- The buffer after the first difference is written. -/
def start (d : FVec F S126x126x16 .f32) : FVec F S126x126x16 .f32 :=
  shapeCast S126x126x16 d shapeCasts_S126x126x16_S126x126x16

/-- The buffer after one more difference: the elementwise least of what it held and the difference. -/
def fold (acc : Vec F S126x126x16 .f32) (d : FVec F S126x126x16 .f32) : FVec F S126x126x16 .f32 :=
  shapeCast S126x126x16 (minimumf acc d) shapeCasts_S126x126x16_S126x126x16

/-- The buffer after all 27 differences, in the order i, then j, then c. -/
def least (v1 : FVec F S128x3x128 .f32) (v2 : Vec F S3x3x3x16 .f32) : FVec F S126x126x16 .f32 :=
  fold (fold (fold (fold (fold (fold (fold (fold (fold (fold (fold (fold (fold (fold (fold (fold (fold (fold
  (fold (fold (fold (fold (fold (fold (fold (fold
    (start (diff 0 0 0 slices_S128x3x128_o0_0_0_S126x1x126 slices_S3x3x3x16_o0_0_0_0_S1x1x1x16 v1 v2))
    (diff 0 0 1 slices_S128x3x128_o0_1_0_S126x1x126 slices_S3x3x3x16_o0_0_1_0_S1x1x1x16 v1 v2))
    (diff 0 0 2 slices_S128x3x128_o0_2_0_S126x1x126 slices_S3x3x3x16_o0_0_2_0_S1x1x1x16 v1 v2))
    (diff 0 1 0 slices_S128x3x128_o0_0_1_S126x1x126 slices_S3x3x3x16_o0_1_0_0_S1x1x1x16 v1 v2))
    (diff 0 1 1 slices_S128x3x128_o0_1_1_S126x1x126 slices_S3x3x3x16_o0_1_1_0_S1x1x1x16 v1 v2))
    (diff 0 1 2 slices_S128x3x128_o0_2_1_S126x1x126 slices_S3x3x3x16_o0_1_2_0_S1x1x1x16 v1 v2))
    (diff 0 2 0 slices_S128x3x128_o0_0_2_S126x1x126 slices_S3x3x3x16_o0_2_0_0_S1x1x1x16 v1 v2))
    (diff 0 2 1 slices_S128x3x128_o0_1_2_S126x1x126 slices_S3x3x3x16_o0_2_1_0_S1x1x1x16 v1 v2))
    (diff 0 2 2 slices_S128x3x128_o0_2_2_S126x1x126 slices_S3x3x3x16_o0_2_2_0_S1x1x1x16 v1 v2))
    (diff 1 0 0 slices_S128x3x128_o1_0_0_S126x1x126 slices_S3x3x3x16_o1_0_0_0_S1x1x1x16 v1 v2))
    (diff 1 0 1 slices_S128x3x128_o1_1_0_S126x1x126 slices_S3x3x3x16_o1_0_1_0_S1x1x1x16 v1 v2))
    (diff 1 0 2 slices_S128x3x128_o1_2_0_S126x1x126 slices_S3x3x3x16_o1_0_2_0_S1x1x1x16 v1 v2))
    (diff 1 1 0 slices_S128x3x128_o1_0_1_S126x1x126 slices_S3x3x3x16_o1_1_0_0_S1x1x1x16 v1 v2))
    (diff 1 1 1 slices_S128x3x128_o1_1_1_S126x1x126 slices_S3x3x3x16_o1_1_1_0_S1x1x1x16 v1 v2))
    (diff 1 1 2 slices_S128x3x128_o1_2_1_S126x1x126 slices_S3x3x3x16_o1_1_2_0_S1x1x1x16 v1 v2))
    (diff 1 2 0 slices_S128x3x128_o1_0_2_S126x1x126 slices_S3x3x3x16_o1_2_0_0_S1x1x1x16 v1 v2))
    (diff 1 2 1 slices_S128x3x128_o1_1_2_S126x1x126 slices_S3x3x3x16_o1_2_1_0_S1x1x1x16 v1 v2))
    (diff 1 2 2 slices_S128x3x128_o1_2_2_S126x1x126 slices_S3x3x3x16_o1_2_2_0_S1x1x1x16 v1 v2))
    (diff 2 0 0 slices_S128x3x128_o2_0_0_S126x1x126 slices_S3x3x3x16_o2_0_0_0_S1x1x1x16 v1 v2))
    (diff 2 0 1 slices_S128x3x128_o2_1_0_S126x1x126 slices_S3x3x3x16_o2_0_1_0_S1x1x1x16 v1 v2))
    (diff 2 0 2 slices_S128x3x128_o2_2_0_S126x1x126 slices_S3x3x3x16_o2_0_2_0_S1x1x1x16 v1 v2))
    (diff 2 1 0 slices_S128x3x128_o2_0_1_S126x1x126 slices_S3x3x3x16_o2_1_0_0_S1x1x1x16 v1 v2))
    (diff 2 1 1 slices_S128x3x128_o2_1_1_S126x1x126 slices_S3x3x3x16_o2_1_1_0_S1x1x1x16 v1 v2))
    (diff 2 1 2 slices_S128x3x128_o2_2_1_S126x1x126 slices_S3x3x3x16_o2_1_2_0_S1x1x1x16 v1 v2))
    (diff 2 2 0 slices_S128x3x128_o2_0_2_S126x1x126 slices_S3x3x3x16_o2_2_0_0_S1x1x1x16 v1 v2))
    (diff 2 2 1 slices_S128x3x128_o2_1_2_S126x1x126 slices_S3x3x3x16_o2_2_1_0_S1x1x1x16 v1 v2))
    (diff 2 2 2 slices_S128x3x128_o2_2_2_S126x1x126 slices_S3x3x3x16_o2_2_2_0_S1x1x1x16 v1 v2)

/-- The output block: the largest over f of the buffer, as a [1, 126, 126] block of the image block and the weights. -/
def block (x0 : Vec F S1x128x3x128 .f32) (x1 : Vec F S3x3x3x16 .f32) : FVec F S1x126x126 .f32 :=
  k0_pay3 (least (k0_pay4 x0) x1)

/-! ## The run's found piece is that block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A read of a whole buffer returns the payload of the latest store, when that store covered the whole buffer,
    whatever was stored before it (offsets all zero, extents the buffer's own, however they are spelt). -/
theorem read_latest {S : Shape} {e : EltTy} {sig : RefSig} {κ : Kind} {sp : Space} (vw : View sig κ sp S e)
    {off sz : Fin S.rank → Nat} (hoff : off = fun _ => 0) (hsz : sz = S.size) (inb : ∀ a, off a + sz a ≤ S.size a)
    (w : (Rect.unit off sz inb).shape.Idx → Elt F e) (L : List (View.Piece (Elt F) S e)) :
    vw.readCov ((⟨Rect.unit off sz inb, w⟩ : View.Piece (Elt F) S e) :: L) (Rect.unit off sz inb).toLoadRect = w := by
  subst hoff; subst hsz
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

theorem size3 : (![126, 126, 16] : Fin 3 → Nat) = S126x126x16.size := rfl

set_option maxRecDepth 400000 in
/-- What the body leaves in the output's staging buffer, on any whole memrefs: every store covers its buffer, so the one
    piece of the output is read back as its payload, and each read of the running buffer returns the payload of the store
    before it. -/
theorem out_eq_block (c : Dev nD) (i : grid0.Coords) (a1 : Memref sig .tc .vmem S1x128x3x128 .f32) (h1 : a1.IsWhole)
    (a2 : Memref sig .tc .vmem S3x3x3x16 .f32) (h2 : a2.IsWhole) (a3 : Memref sig .tc .vmem S1x126x126 .f32) (h3 : a3.IsWhole)
    (a4 : Memref sig .tc .vmem S126x126x16 .f32) (h4 : a4.IsWhole)
    (x0 : Vec F S1x128x3x128 .f32) (x1 : Vec F S3x3x3x16 .f32) :
    out0_A_2 c i a1 h1 a2 h2 a3 h3 a4 h4 x0 x1 = block x0 x1 := by
  unfold out0_A_2
  rw [View.read_writes_eq_canon _ _ _ (cover0_A_2 c i a1 h1 a2 h2 a3 h3 a4 h4 x0 x1)]
  unfold kernelRun0_A
  dsimp only
  sl_unfold_words
  rw [View.canon_unit_zero (S := S1x126x126) hz3]
  simp only [View.readAt_eq_ld, h1.read_unread, h2.read_unread, View.ld_unit_zero (S := S1x128x3x128) hz4,
    View.ld_unit_zero (S := S3x3x3x16) hz4, read_latest (S := S126x126x16) _ hz3 size3]
  rfl

end Cert.KernelIdeal.BlockValue

end
-- ==== Proof.KernelBlockValue.lean ====
/-
  The kernel's output block read at an index, over the extended reals.

  The difference array for window offset (i, j) and channel c reads, at (h, v, f), the image block at row h + i,
  channel c, column v + j, less the weight (i, j, c, f): the two slices are shifts by the offsets, the casts and
  broadcasts only add and drop unit axes. The running buffer at (h, v, f) is therefore the least of the 27 differences
  taken one after the other, and the block at (0, h, v) the fold of `max` from `-inf` over f of that. With the image
  block x0[0, r, c, s] = X[n, r, s, c] this is the erosion's value `out X x1` at (n, h, v, 0), by associativity of
  `min` (ErosionSpec, `running_eq_ero`).
-/
import proofs.«134567_j62861141344687_1_alg».proof.Proof.KernelBlock

set_option maxRecDepth 16384

noncomputable section

namespace Cert.KernelIdeal.BlockValue

open Cert.KernelIdeal Cert.KernelIdeal.Gen Cert.Erosion
open Idealize.ShloMosaic Idealize.ShloMosaic.TcCoe Idealize.ShloMosaic.ValueIdx

/-- The first write leaves the difference itself. -/
theorem start_apply (d : FVec Ideal S126x126x16 .f32) (q : S126x126x16.Idx) : start d q = d q := by
  unfold start; rw [shapeCast_self]

/-- One more difference: the least of what the buffer held and the difference, entry by entry. -/
theorem fold_apply (acc : Vec Ideal S126x126x16 .f32) (d : FVec Ideal S126x126x16 .f32) (q : S126x126x16.Idx) :
    fold acc d q = min (acc q) (d q) := by
  unfold fold; rw [shapeCast_self]; rfl

/-- The difference array at (h, v, f): the image block at row h + i, channel c, column v + j, less weight (i, j, c, f). -/
theorem diff_apply (i j c : Fin 3) (hx : S128x3x128.Slices ![i.val, c.val, j.val] S126x1x126)
    (hw : S3x3x3x16.Slices ![i.val, j.val, c.val, 0] S1x1x1x16)
    (v1 : FVec Ideal S128x3x128 .f32) (v2 : Vec Ideal S3x3x3x16 .f32) (h v : Fin 126) (f : Fin 16) :
    diff i j c hx hw v1 v2 (ix3 h v f) = v1 (ix3 (shift h i) c (shift v j)) - v2 (ix4 i j c f) := by
  unfold diff
  rw [subf_apply]
  congr 1
  · refine (broadcastTo_apply _ broadcasts_S126x126x1_S126x126x16 (ix3 h v f) (ix3 h v (0 : Fin 1)) (fun a => ?_)).trans ?_
    · match a with
      | ⟨0, _⟩ => show h.val = if (126 : Nat) = 1 then 0 else h.val; rw [if_neg (by decide)]
      | ⟨1, _⟩ => show v.val = if (126 : Nat) = 1 then 0 else v.val; rw [if_neg (by decide)]
      | ⟨2, _⟩ => show 0 = if (1 : Nat) = 1 then 0 else f.val; rw [if_pos rfl]
    refine (shapeCast_apply _ shapeCasts_S126x126_S126x126x1 (ix3 h v (0 : Fin 1)) (ix2 h v) ?_).trans ?_
    · rw [Shape.rowMajor_val_two, Shape.rowMajor_val_three]
      show h.val * 126 + v.val = (h.val * 126 + v.val) * 1 + 0
      omega
    refine (shapeCast_apply _ shapeCasts_S126x1x126_S126x126 (ix2 h v) (ix3 h (0 : Fin 1) v) ?_).trans ?_
    · rw [Shape.rowMajor_val_three, Shape.rowMajor_val_two]
      show (h.val * 1 + 0) * 126 + v.val = h.val * 126 + v.val
      omega
    refine extractStridedSlice_apply _ v1 hx (ix3 h (0 : Fin 1) v) (ix3 (shift h i) c (shift v j)) (fun a => ?_)
    match a with
    | ⟨0, _⟩ => show h.val + i.val = i.val + h.val; omega
    | ⟨1, _⟩ => show c.val = c.val + 0; omega
    | ⟨2, _⟩ => show v.val + j.val = j.val + v.val; omega
  · refine (broadcastTo_apply _ broadcasts_S1x1x16_S126x126x16 (ix3 h v f) (ix3 (0 : Fin 1) (0 : Fin 1) f) (fun a => ?_)).trans ?_
    · match a with
      | ⟨0, _⟩ => show 0 = if (1 : Nat) = 1 then 0 else h.val; rw [if_pos rfl]
      | ⟨1, _⟩ => show 0 = if (1 : Nat) = 1 then 0 else v.val; rw [if_pos rfl]
      | ⟨2, _⟩ => show f.val = if (16 : Nat) = 1 then 0 else f.val; rw [if_neg (by decide)]
    refine (shapeCast_apply _ shapeCasts_S16_S1x1x16 (ix3 (0 : Fin 1) (0 : Fin 1) f) (ix1 f) ?_).trans ?_
    · rw [Shape.rowMajor_val_one, Shape.rowMajor_val_three]
      show f.val = (0 * 1 + 0) * 16 + f.val
      omega
    refine (shapeCast_apply _ shapeCasts_S1x1x1x16_S16 (ix1 f) (ix4 (0 : Fin 1) (0 : Fin 1) (0 : Fin 1) f) ?_).trans ?_
    · rw [Shape.rowMajor_val_four, Shape.rowMajor_val_one]
      show ((0 * 1 + 0) * 1 + 0) * 16 + f.val = f.val
      omega
    refine extractStridedSlice_apply _ v2 hw (ix4 (0 : Fin 1) (0 : Fin 1) (0 : Fin 1) f) (ix4 i j c f) (fun a => ?_)
    match a with
    | ⟨0, _⟩ => show i.val = i.val + 0; omega
    | ⟨1, _⟩ => show j.val = j.val + 0; omega
    | ⟨2, _⟩ => show c.val = c.val + 0; omega
    | ⟨3, _⟩ => show f.val = 0 + f.val; omega

/-- The running buffer after all 27 differences, at (h, v, f): their least, taken one after the other. -/
theorem least_apply (v1 : FVec Ideal S128x3x128 .f32) (v2 : Vec Ideal S3x3x3x16 .f32) (h v : Fin 126) (f : Fin 16) :
    least v1 v2 (ix3 h v f) =
      (let d : Fin 3 → Fin 3 → Fin 3 → Ideal .f32 := fun i j c => v1 (ix3 (shift h i) c (shift v j)) - v2 (ix4 i j c f)
       min (min (min (min (min (min (min (min (min (min (min (min (min (min (min (min (min (min (min (min (min (min (min (min
        (min (min (d 0 0 0) (d 0 0 1)) (d 0 0 2)) (d 0 1 0)) (d 0 1 1)) (d 0 1 2)) (d 0 2 0)) (d 0 2 1)) (d 0 2 2))
        (d 1 0 0)) (d 1 0 1)) (d 1 0 2)) (d 1 1 0)) (d 1 1 1)) (d 1 1 2)) (d 1 2 0)) (d 1 2 1)) (d 1 2 2))
        (d 2 0 0)) (d 2 0 1)) (d 2 0 2)) (d 2 1 0)) (d 2 1 1)) (d 2 1 2)) (d 2 2 0)) (d 2 2 1)) (d 2 2 2)) := by
  unfold least
  simp only [fold_apply, start_apply, diff_apply]

/-- The reduced index (h, v) with coordinate f put back on the last axis is (h, v, f). -/
theorem lift_hv (hr : S126x126x16.Reduces [2] S126x126) (h v : Fin 126) (f : Fin (S126x126x16.size 2)) :
    hr.lift (ix2 h v) f = ix3 h v (⟨f.val, f.isLt⟩ : Fin 16) := by
  funext a; apply Fin.ext
  match a with
  | ⟨0, _⟩ => rfl
  | ⟨1, _⟩ => rfl
  | ⟨2, _⟩ => rfl

/-- The image block with its leading unit axis dropped. -/
theorem pay4_apply (x0 : Vec Ideal S1x128x3x128 .f32) (r : Fin 128) (c : Fin 3) (s : Fin 128) :
    k0_pay4 x0 (ix3 r c s) = x0 (ix4 (0 : Fin 1) r c s) :=
  shapeCast_1abc_abc_apply x0 shapeCasts_S1x128x3x128_S128x3x128 r c s

/-- The output block at (0, h, v): the largest over f, from `-inf`, of the running buffer at (h, v, f). -/
theorem block_apply (x0 : Vec Ideal S1x128x3x128 .f32) (x1 : Vec Ideal S3x3x3x16 .f32) (h v : Fin 126) :
    block x0 x1 (ix3 (0 : Fin 1) h v)
      = (Finset.univ : Finset (Fin 16)).fold max (Ideal.ofBits .f32 0xFF800000#32)
          (fun f => least (k0_pay4 x0) x1 (ix3 h v f)) := by
  unfold block k0_pay3
  refine (shapeCast_apply _ shapeCasts_S126x126_S1x126x126 (ix3 (0 : Fin 1) h v) (ix2 h v) ?_).trans ?_
  · rw [Shape.rowMajor_val_two, Shape.rowMajor_val_three]
    show h.val * 126 + v.val = (0 * 126 + h.val) * 126 + v.val
    omega
  refine (Ideal.multiReduction_maximumf_single _ _ reduces_S126x126x16_S126x126 (.inl rfl) rfl (ix2 h v)).trans ?_
  refine congrArg (fun g => Finset.fold max (Ideal.ofBits .f32 0xFF800000#32) g (Finset.univ : Finset (Fin 16))) ?_
  funext f
  exact congrArg (least (k0_pay4 x0) x1) (lift_hv reduces_S126x126x16_S126x126 h v f)

/-- THE BLOCK IS THE EROSION: if the image block is image n of X with channels and columns exchanged, the block at
    (0, h, v) is `out X x1` at (n, h, v, 0). -/
theorem block_eq_out (x0 : Vec Ideal S1x128x3x128 .f32) (x1 : Vec Ideal S3x3x3x16 .f32) (X : FVec Ideal SX .f32) (n : Fin 16)
    (hx0 : ∀ (r : Fin 128) (c : Fin 3) (s : Fin 128), x0 (ix4 (0 : Fin 1) r c s) = X (ix4 n r s c)) (h v : Fin 126) :
    block x0 x1 (ix3 (0 : Fin 1) h v) = out X x1 (ix4 n h v (0 : Fin 1)) := by
  rw [block_apply]
  unfold out
  refine congrArg (fun g => Finset.fold max (Ideal.ofBits .f32 0xFF800000#32) g (Finset.univ : Finset (Fin 16))) ?_
  funext f
  rw [least_apply]
  simp only [pay4_apply, hx0]
  exact running_eq_ero X x1 n h v f

end Cert.KernelIdeal.BlockValue

end
-- ==== Proof.KernelRun.lean ====
/-
  The kernel program's run, read as a value over the extended reals.

  @main first exchanges the channel and column axes of the images X, so the kernel's input array holds
  Xt[n, r, c, s] = X[n, r, s, c]; grid point n is handed block n of Xt (one image) and all the weights W, and writes
  block n of a [16, 126, 126] array; a last host line adds a trailing unit axis. Point n's block at (0, h, v) is the
  erosion's value `out X W` at (n, h, v, 0) (KernelBlockValue), the sixteen blocks tile the array (index (n, h, v) lies in
  block n and in no other), so the array after the run is (n, h, v) |-> out X W (n, h, v, 0) and the program's result is
  `out X W`.
-/
import proofs.«134567_j62861141344687_1_alg».proof.Proof.KernelBlockValue
import Idealize.ShloMosaic.Lib.StableHlo.Run

set_option maxRecDepth 16384

noncomputable section

namespace Cert.KernelIdeal.RunValue

open Cert.KernelIdeal Cert.KernelIdeal.Gen Cert.KernelIdeal.BlockValue Cert.Erosion
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The images and the weights as launched, on core c. -/
abbrev X (c : Dev nD) : FVec Ideal SX .f32 := m ((c : Thread nD τ).loc main_arg0)
abbrev W (c : Dev nD) : FVec Ideal SW .f32 := m ((c : Thread nD τ).loc main_arg1)

/-- What the kernel's output array ends holding: the erosion's value without its trailing unit axis. -/
def G (c : Dev nD) : S16x126x126.Idx → Elt Ideal .f32 := fun i => out (X m c) (W m c) (ix4 (i 0) (i 1) (i 2) (0 : Fin 1))

/-- A grid point as an image number. -/
abbrev img (t : Fin cfg0.N) : Fin 16 := ⟨t.val, t.isLt⟩

/-! ## The arrays the region finds -/

/-- The kernel's input array is the images with channels and columns exchanged. -/
theorem Xt_eq (c : Dev nD) :
    (V m c main_v0 : S16x128x3x128.Idx → Elt Ideal .f32)
      = transpose S16x128x3x128 [0, 1, 3, 2] (X m c) transposes_S16x128x128x3_S16x128x3x128_0_1_3_2 := by
  show StableHlo.after hostOps0 (fun b => m (c, b)) (Proc.devRef .tc main_v0) = _
  after_results

theorem Xt_apply (c : Dev nD) (n : Fin 16) (r : Fin 128) (ch : Fin 3) (s : Fin 128) :
    (V m c main_v0 : S16x128x3x128.Idx → Elt Ideal .f32) (ix4 n r ch s) = X m c (ix4 n r s ch) := by
  rw [Xt_eq]
  refine transpose_apply [0, 1, 3, 2] (X m c) transposes_S16x128x128x3_S16x128x3x128_0_1_3_2 (ix4 n r ch s) (ix4 n r s ch) (fun b => ?_)
  match b with
  | ⟨0, _⟩ => rfl
  | ⟨1, _⟩ => rfl
  | ⟨2, _⟩ => rfl
  | ⟨3, _⟩ => rfl

/-- The printed index maps, decided over the grid: the image block and the output block move with the point along the
    first axis, the weights' block stays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The two input blocks at point t, at their literal types. -/
abbrev xblk (c : Dev nD) (t : Fin cfg0.N) : Vec Ideal S1x128x3x128 .f32 := iblk m c 0 t
abbrev wblk (c : Dev nD) (t : Fin cfg0.N) : Vec Ideal S3x3x3x16 .f32 := iblk m c 1 t

/-- Point t's image block is image t with channels and columns exchanged. -/
theorem xblk_apply (c : Dev nD) (t : Fin cfg0.N) (r : Fin 128) (ch : Fin 3) (s : Fin 128) :
    xblk m c t (ix4 (0 : Fin 1) r ch s) = X m c (ix4 (img t) r s ch) := by
  obtain ⟨e0, e1, e2, e3, -⟩ := idx_facts t
  show (V m c main_v0 : S16x128x3x128.Idx → Elt Ideal .f32) (((cfg0.win 0).blk t).view.emb (ix4 (0 : Fin 1) r ch s)) = _
  rw [← Xt_apply m c (img t) r ch s]
  refine congrArg _ (funext fun a => Fin.ext ?_)
  match a with
  | ⟨0, _⟩ => show win0_0.index t (0 : Fin 4) * 1 + 1 * 0 = t.val; omega
  | ⟨1, _⟩ => show win0_0.index t (1 : Fin 4) * 128 + 1 * r.val = r.val; omega
  | ⟨2, _⟩ => show win0_0.index t (2 : Fin 4) * 3 + 1 * ch.val = ch.val; omega
  | ⟨3, _⟩ => show win0_0.index t (3 : Fin 4) * 128 + 1 * s.val = s.val; omega

/-- Every point's weights block is all the weights. -/
theorem wblk_eq (c : Dev nD) (t : Fin cfg0.N) : wblk m c t = W m c := by
  obtain ⟨-, -, -, -, e0, e1, e2, e3, -⟩ := idx_facts t
  funext y
  show (V m c main_arg1 : S3x3x3x16.Idx → Elt Ideal .f32) (((cfg0.win 1).blk t).view.emb y) = _
  rw [V_main_arg1]
  refine congrArg _ (funext fun a => Fin.ext ?_)
  match a with
  | ⟨0, _⟩ => show win0_1.index t (0 : Fin 4) * 3 + 1 * (y 0).val = (y 0).val; omega
  | ⟨1, _⟩ => show win0_1.index t (1 : Fin 4) * 3 + 1 * (y 1).val = (y 1).val; omega
  | ⟨2, _⟩ => show win0_1.index t (2 : Fin 4) * 3 + 1 * (y 2).val = (y 2).val; omega
  | ⟨3, _⟩ => show win0_1.index t (3 : Fin 4) * 16 + 1 * (y 3).val = (y 3).val; omega

/-! ## From the blocks to the array -/

/-- WHAT POINT t WRITES BACK is block t of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outsAt0
  rw [out_eq_block]
  obtain ⟨-, -, -, -, -, -, -, -, e0, e1, e2⟩ := idx_facts t
  funext j
  obtain ⟨u, h, v, rfl⟩ : ∃ (u : Fin 1) (h v : Fin 126), j = ix3 u h v := ⟨j 0, j 1, j 2, eq_ix3 j⟩
  obtain rfl : u = 0 := Subsingleton.elim _ _
  show block (xblk m c t) (wblk m c t) (ix3 (0 : Fin 1) h v) = G m c (((cfg0.win 2).blk t).view.emb (ix3 (0 : Fin 1) h v))
  rw [block_eq_out (xblk m c t) (wblk m c t) (X m c) (img t) (xblk_apply m c t) h v, wblk_eq]
  unfold G
  refine congrArg (out (X m c) (W m c)) (funext fun a => Fin.ext ?_)
  match a with
  | ⟨0, _⟩ => show t.val = win0_2.index t (0 : Fin 3) * 1 + 1 * 0; omega
  | ⟨1, _⟩ => show h.val = win0_2.index t (1 : Fin 3) * 126 + 1 * h.val; omega
  | ⟨2, _⟩ => show v.val = win0_2.index t (2 : Fin 3) * 126 + 1 * v.val; omega
  | ⟨3, _⟩ => rfl

/-- An index of the array is in point t's block iff each coordinate is in the block's range on its axis. -/
theorem mem_blk (t : Fin cfg0.N) (i : S16x126x126.Idx) :
    i ∈ ((cfg0.win 2).blk t).view.set ↔ ∀ a : Fin 3, win0_2.index t a * S1x126x126.size a ≤ (i a).val ∧ (i a).val < win0_2.index t a * S1x126x126.size a + S1x126x126.size a := by
  show i ∈ ((View.whole main_v1).slice (win0_2.rect t)).set ↔ _
  rw [View.set_slice_whole, Rect.mem_set_unit]
  exact Iff.rfl

/-- Every index of the array lies in the block of the point numbered by its first coordinate. -/
theorem cover (i : S16x126x126.Idx) :
    ∃ t : Fin cfg0.N, (cfg0.win 2).flush t = true ∧ i ∈ ((cfg0.win 2).blk t).view.set := by
  have h0 : (i 0).val < 16 := (i 0).isLt
  have h1 : (i 1).val < 126 := (i 1).isLt
  have h2 : (i 2).val < 126 := (i 2).isLt
  refine ⟨⟨(i 0).val, h0⟩, flush0_2 _, ?_⟩
  obtain ⟨-, -, -, -, -, -, -, -, e0, e1, e2⟩ := idx_facts ⟨(i 0).val, h0⟩
  rw [mem_blk]
  intro a
  match a with
  | ⟨0, _⟩ => show win0_2.index ⟨(i 0).val, h0⟩ (0 : Fin 3) * 1 ≤ (i 0).val ∧ (i 0).val < win0_2.index ⟨(i 0).val, h0⟩ (0 : Fin 3) * 1 + 1; rw [e0]; show (i 0).val * 1 ≤ (i 0).val ∧ (i 0).val < (i 0).val * 1 + 1; omega
  | ⟨1, _⟩ => show win0_2.index ⟨(i 0).val, h0⟩ (1 : Fin 3) * 126 ≤ (i 1).val ∧ (i 1).val < win0_2.index ⟨(i 0).val, h0⟩ (1 : Fin 3) * 126 + 126; omega
  | ⟨2, _⟩ => show win0_2.index ⟨(i 0).val, h0⟩ (2 : Fin 3) * 126 ≤ (i 2).val ∧ (i 2).val < win0_2.index ⟨(i 0).val, h0⟩ (2 : Fin 3) * 126 + 126; omega

/-- THE ARRAY after the run. -/
theorem final (c : Dev nD) : (dats m 0 c).arrAt 2 cfg0.N = G m c :=
  (dats m 0 c).arrAt_eq_of_cover 2 (G m c) (fun t _ => flushed_eq m c t) cover

/-! ## The line after the region, and the run -/

/-- The program's result: the array with a trailing unit axis, that is `out X W`. -/
theorem result_eq (c : Dev nD) :
    Pipeline.afterTail₀ cfgs (dats m) 0 (V0 m) [hostOps1] c main_v2 = out (X m c) (W m c) := by
  unfold Pipeline.afterTail₀
  show StableHlo.after hostOps1 _ (Proc.devRef .tc main_v2) = _
  after_results
  show broadcastInDim S16x126x126x1 ![0, 1, 2] bcast_S16x126x126_S16x126x126x1_0_1_2
      (Pipeline.withArrays spec0 c (V0 m c) (fun w => (dats m 0 c).arrAt w cfg0.N) (Proc.devRef .tc (Pipeline.arrRef spec0 2))) = _
  rw [Pipeline.withArrays_arr spec0 launch0.win.arr_inj, final]
  funext q
  have h0 : (q 0).val < 16 := (q 0).isLt
  have h1 : (q 1).val < 126 := (q 1).isLt
  have h2 : (q 2).val < 126 := (q 2).isLt
  refine (broadcastInDim_apply _ bcast_S16x126x126_S16x126x126x1_0_1_2 (G m c) q
    (ix3 (⟨(q 0).val, h0⟩ : Fin 16) (⟨(q 1).val, h1⟩ : Fin 126) (⟨(q 2).val, h2⟩ : Fin 126)) (fun a => ?_)).trans ?_
  · match a with
    | ⟨0, _⟩ => show (q 0).val = if (16 : Nat) = 1 then 0 else (q 0).val; rw [if_neg (by decide)]
    | ⟨1, _⟩ => show (q 1).val = if (126 : Nat) = 1 then 0 else (q 1).val; rw [if_neg (by decide)]
    | ⟨2, _⟩ => show (q 2).val = if (126 : Nat) = 1 then 0 else (q 2).val; rw [if_neg (by decide)]
  unfold G
  refine congrArg (out (X m c) (W m c)) (funext fun a => Fin.ext ?_)
  match a with
  | ⟨0, _⟩ => rfl
  | ⟨1, _⟩ => rfl
  | ⟨2, _⟩ => rfl
  | ⟨3, _⟩ => show 0 = (q 3).val; have h3 : (q 3).val < 1 := (q 3).isLt; omega

/-- THE RUN: every weakly fair execution of the kernel program terminates with its result at `out X W` and the
    arguments as launched. -/
theorem run : θ_run defs (onTc (τ := τ) (main (F := Ideal))) ⟨m, fun _ => 0, ρ⟩ fun r => ∀ c : Dev nD,
      r.2.mem ((c.tc : Thread nD τ).loc main_v2) = out (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.RunValue

end
-- ==== Proof.ReferenceValue.lean ====
/-
  The value the reference program writes, read at an index.

  For each of the nine window offsets (i, j) the reference program forms, over five coordinates (n, h, v, c, f), the
  difference x[n, h + i, v + j, c] - w[i, j, c, f]; it reduces that array over the channel c with `min` from `+inf`;
  it folds the nine reduced arrays with `min`, one after the other; it reduces the result over the structuring element
  f with `max` from `-inf`; and it appends an axis of extent one. Each stage is read here at an index: the difference
  is `term`, its reduction over the channel is `tap`, the fold of the nine is `ero`, and the reduction over f is `out`.

  A reduction over one axis is, at a reduced index, the fold over that axis's coordinates of the operand read at the
  reduced index with the coordinate put back in its place; for `min` and `max` on the extended reals the fold does not
  depend on the order. The slices, reshapes and broadcasts only move indices: a slice starting at (i, j) reads row
  h + i and column v + j, and the weight's 3 x 16 page, flattened and split again, gives back (c, f).
-/
import proofs.«134567_j62861141344687_1_alg».proof.Proof.Gen.ReferenceIdeal.Read
import proofs.«134567_j62861141344687_1_alg».proof.Proof.ErosionSpec
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.Erosion
open Idealize.ShloMosaic Idealize.ShloMosaic.ValueIdx

/-! ## Indices -/

/-- A position c * 16 + f of the flattened 3 x 16 page of weights lies in row c. -/
theorem row_of_flat (c : Fin 3) (f : Fin 16) : (c.val * 16 + f.val) / 16 % 3 = c.val := by
  have := c.isLt; have := f.isLt; omega

/-- A position c * 16 + f of the flattened 3 x 16 page of weights lies in column f. -/
theorem col_of_flat (c : Fin 3) (f : Fin 16) : (c.val * 16 + f.val) % 16 = f.val := by
  have := f.isLt; omega

/-- The reduced index (n, h, v, f) with the channel k put back on the fourth axis is (n, h, v, k, f). -/
theorem lift_channel (hr : S16x126x126x3x16.Reduces [3] S16x126x126x16) (n : Fin 16) (h v : Fin 126) (f : Fin 16)
    (k : Fin (S16x126x126x3x16.size 3)) :
    hr.lift (ix4 n h v f) k = ix5 n h v (⟨k.val, k.isLt⟩ : Fin 3) f := by
  funext a; apply Fin.ext
  fin_cases a <;> rfl

/-- The reduced index (n, h, v) with the structuring element k put back on the last axis is (n, h, v, k). -/
theorem lift_element (hr : S16x126x126x16.Reduces [3] S16x126x126) (n : Fin 16) (h v : Fin 126)
    (k : Fin (S16x126x126x16.size 3)) :
    hr.lift (ix3 n h v) k = ix4 n h v (⟨k.val, k.isLt⟩ : Fin 16) := by
  funext a; apply Fin.ext
  fin_cases a <;> rfl

/-! ## The reduction over the channel -/

/-- If an array over (n, h, v, c, f) holds at every index the term of window offset (i, j), its reduction over c with
    `min` from `+inf` holds at (n, h, v, f) the least of the three channels' terms. -/
theorem reduce_channels (x : FVec Ideal SX .f32) (w : FVec Ideal SW .f32) (D : FVec Ideal S16x126x126x3x16 .f32)
    (i j : Fin 3)
    (hD : ∀ (n : Fin 16) (h v : Fin 126) (c : Fin 3) (f : Fin 16), D (ix5 n h v c f) = term x w n h v f i j c)
    (n : Fin 16) (h v : Fin 126) (f : Fin 16) :
    Host.reduce FloatOps.minimumf D (constant (F := Ideal) S_ .f32 0x7F800000#32)
      reducesTo_S16x126x126x3x16_S16x126x126x16_d3 h_S_ (ix4 n h v f) = tap x w n h v f i j := by
  have hr : S16x126x126x3x16.Reduces [3] S16x126x126x16 := by decide
  rw [Host.reduce_eq_fold_single FloatOps.minimumf D _ reducesTo_S16x126x126x3x16_S16x126x126x16_d3 hr h_S_]
  have hf : (D ∘ hr.lift (ix4 n h v f)) = fun c : Fin 3 => term x w n h v f i j c :=
    funext fun k => (congrArg D (lift_channel hr n h v f k)).trans (hD n h v ⟨k.val, k.isLt⟩ f)
  refine Eq.trans ?_ (fold_channels_eq_tap x w n h v f i j)
  exact congrArg (fun g => Finset.fold min (Ideal.ofBits .f32 0x7F800000#32) g (Finset.univ : Finset (Fin 3))) hf

/-! ## The nine window offsets

  Each block of the program slices the images at (i, j) and the weights at (i, j), broadcasts both to the five
  coordinates (n, h, v, c, f) and subtracts. Read at (n, h, v, c, f) the difference is the term of that offset. -/

/-- Window offset (0, 0): the difference read at (n, h, v, c, f). -/
theorem term_00 (x : FVec Ideal SX .f32) (w : FVec Ideal SW .f32) (n : Fin 16) (h v : Fin 126) (c : Fin 3) (f : Fin 16) :
    val_main_v7 (F := Ideal) x w (ix5 n h v c f) = term x w n h v f 0 0 c := by
  rw [val_main_v7_apply, val_main_v5_apply, val_main_v1_apply, val_main_v0_apply,
    val_main_v6_apply, val_main_v4_apply, val_main_v3_apply, val_main_v2_apply]
  have hx : idx_main_v0 (idx_main_v1 (idx_main_v5 (ix5 n h v c f))) = ix4 n (shift h 0) (shift v 0) c :=
    funext fun a => match a with
      | ⟨0, _⟩ => rfl
      | ⟨1, _⟩ => Fin.ext (show h.val = h.val + 0 from rfl)
      | ⟨2, _⟩ => Fin.ext (show v.val = v.val + 0 from rfl)
      | ⟨3, _⟩ => rfl
  have hw : idx_main_v2 (idx_main_v3 (idx_main_v4 (idx_main_v6 (ix5 n h v c f))))
      = ix4 (0 : Fin 3) (0 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (0, 0): the reduction over the channel read at (n, h, v, f). -/
theorem tap_00 (x : FVec Ideal SX .f32) (w : FVec Ideal SW .f32) (n : Fin 16) (h v : Fin 126) (f : Fin 16) :
    val_main_v8 (F := Ideal) x w (ix4 n h v f) = tap x w n h v f 0 0 :=
  reduce_channels x w (val_main_v7 (F := Ideal) x w) 0 0 (fun n h v c f => term_00 x w n h v c f) n h v f

/-- Window offset (0, 1): the difference read at (n, h, v, c, f). -/
theorem term_01 (x : FVec Ideal SX .f32) (w : FVec Ideal SW .f32) (n : Fin 16) (h v : Fin 126) (c : Fin 3) (f : Fin 16) :
    val_main_v16 (F := Ideal) x w (ix5 n h v c f) = term x w n h v f 0 1 c := by
  rw [val_main_v16_apply, val_main_v14_apply, val_main_v10_apply, val_main_v9_apply,
    val_main_v15_apply, val_main_v13_apply, val_main_v12_apply, val_main_v11_apply]
  have hx : idx_main_v9 (idx_main_v10 (idx_main_v14 (ix5 n h v c f))) = ix4 n (shift h 0) (shift v 1) c :=
    funext fun a => match a with
      | ⟨0, _⟩ => rfl
      | ⟨1, _⟩ => Fin.ext (show h.val = h.val + 0 from rfl)
      | ⟨2, _⟩ => Fin.ext (show 1 + v.val = v.val + 1 from Nat.add_comm 1 v.val)
      | ⟨3, _⟩ => rfl
  have hw : idx_main_v11 (idx_main_v12 (idx_main_v13 (idx_main_v15 (ix5 n h v c f))))
      = ix4 (0 : Fin 3) (1 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (0, 1): the reduction over the channel read at (n, h, v, f). -/
theorem tap_01 (x : FVec Ideal SX .f32) (w : FVec Ideal SW .f32) (n : Fin 16) (h v : Fin 126) (f : Fin 16) :
    val_main_v17 (F := Ideal) x w (ix4 n h v f) = tap x w n h v f 0 1 :=
  reduce_channels x w (val_main_v16 (F := Ideal) x w) 0 1 (fun n h v c f => term_01 x w n h v c f) n h v f

/-- Window offset (0, 2): the difference read at (n, h, v, c, f). -/
theorem term_02 (x : FVec Ideal SX .f32) (w : FVec Ideal SW .f32) (n : Fin 16) (h v : Fin 126) (c : Fin 3) (f : Fin 16) :
    val_main_v26 (F := Ideal) x w (ix5 n h v c f) = term x w n h v f 0 2 c := by
  rw [val_main_v26_apply, val_main_v24_apply, val_main_v20_apply, val_main_v19_apply,
    val_main_v25_apply, val_main_v23_apply, val_main_v22_apply, val_main_v21_apply]
  have hx : idx_main_v19 (idx_main_v20 (idx_main_v24 (ix5 n h v c f))) = ix4 n (shift h 0) (shift v 2) c :=
    funext fun a => match a with
      | ⟨0, _⟩ => rfl
      | ⟨1, _⟩ => Fin.ext (show h.val = h.val + 0 from rfl)
      | ⟨2, _⟩ => Fin.ext (show 2 + v.val = v.val + 2 from Nat.add_comm 2 v.val)
      | ⟨3, _⟩ => rfl
  have hw : idx_main_v21 (idx_main_v22 (idx_main_v23 (idx_main_v25 (ix5 n h v c f))))
      = ix4 (0 : Fin 3) (2 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (0, 2): the reduction over the channel read at (n, h, v, f). -/
theorem tap_02 (x : FVec Ideal SX .f32) (w : FVec Ideal SW .f32) (n : Fin 16) (h v : Fin 126) (f : Fin 16) :
    val_main_v27 (F := Ideal) x w (ix4 n h v f) = tap x w n h v f 0 2 :=
  reduce_channels x w (val_main_v26 (F := Ideal) x w) 0 2 (fun n h v c f => term_02 x w n h v c f) n h v f

/-- Window offset (1, 0): the difference read at (n, h, v, c, f). -/
theorem term_10 (x : FVec Ideal SX .f32) (w : FVec Ideal SW .f32) (n : Fin 16) (h v : Fin 126) (c : Fin 3) (f : Fin 16) :
    val_main_v36 (F := Ideal) x w (ix5 n h v c f) = term x w n h v f 1 0 c := by
  rw [val_main_v36_apply, val_main_v34_apply, val_main_v30_apply, val_main_v29_apply,
    val_main_v35_apply, val_main_v33_apply, val_main_v32_apply, val_main_v31_apply]
  have hx : idx_main_v29 (idx_main_v30 (idx_main_v34 (ix5 n h v c f))) = ix4 n (shift h 1) (shift v 0) c :=
    funext fun a => match a with
      | ⟨0, _⟩ => rfl
      | ⟨1, _⟩ => Fin.ext (show 1 + h.val = h.val + 1 from Nat.add_comm 1 h.val)
      | ⟨2, _⟩ => Fin.ext (show v.val = v.val + 0 from rfl)
      | ⟨3, _⟩ => rfl
  have hw : idx_main_v31 (idx_main_v32 (idx_main_v33 (idx_main_v35 (ix5 n h v c f))))
      = ix4 (1 : Fin 3) (0 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (1, 0): the reduction over the channel read at (n, h, v, f). -/
theorem tap_10 (x : FVec Ideal SX .f32) (w : FVec Ideal SW .f32) (n : Fin 16) (h v : Fin 126) (f : Fin 16) :
    val_main_v37 (F := Ideal) x w (ix4 n h v f) = tap x w n h v f 1 0 :=
  reduce_channels x w (val_main_v36 (F := Ideal) x w) 1 0 (fun n h v c f => term_10 x w n h v c f) n h v f

/-- Window offset (1, 1): the difference read at (n, h, v, c, f). -/
theorem term_11 (x : FVec Ideal SX .f32) (w : FVec Ideal SW .f32) (n : Fin 16) (h v : Fin 126) (c : Fin 3) (f : Fin 16) :
    val_main_v46 (F := Ideal) x w (ix5 n h v c f) = term x w n h v f 1 1 c := by
  rw [val_main_v46_apply, val_main_v44_apply, val_main_v40_apply, val_main_v39_apply,
    val_main_v45_apply, val_main_v43_apply, val_main_v42_apply, val_main_v41_apply]
  have hx : idx_main_v39 (idx_main_v40 (idx_main_v44 (ix5 n h v c f))) = ix4 n (shift h 1) (shift v 1) c :=
    funext fun a => match a with
      | ⟨0, _⟩ => rfl
      | ⟨1, _⟩ => Fin.ext (show 1 + h.val = h.val + 1 from Nat.add_comm 1 h.val)
      | ⟨2, _⟩ => Fin.ext (show 1 + v.val = v.val + 1 from Nat.add_comm 1 v.val)
      | ⟨3, _⟩ => rfl
  have hw : idx_main_v41 (idx_main_v42 (idx_main_v43 (idx_main_v45 (ix5 n h v c f))))
      = ix4 (1 : Fin 3) (1 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (1, 1): the reduction over the channel read at (n, h, v, f). -/
theorem tap_11 (x : FVec Ideal SX .f32) (w : FVec Ideal SW .f32) (n : Fin 16) (h v : Fin 126) (f : Fin 16) :
    val_main_v47 (F := Ideal) x w (ix4 n h v f) = tap x w n h v f 1 1 :=
  reduce_channels x w (val_main_v46 (F := Ideal) x w) 1 1 (fun n h v c f => term_11 x w n h v c f) n h v f

/-- Window offset (1, 2): the difference read at (n, h, v, c, f). -/
theorem term_12 (x : FVec Ideal SX .f32) (w : FVec Ideal SW .f32) (n : Fin 16) (h v : Fin 126) (c : Fin 3) (f : Fin 16) :
    val_main_v56 (F := Ideal) x w (ix5 n h v c f) = term x w n h v f 1 2 c := by
  rw [val_main_v56_apply, val_main_v54_apply, val_main_v50_apply, val_main_v49_apply,
    val_main_v55_apply, val_main_v53_apply, val_main_v52_apply, val_main_v51_apply]
  have hx : idx_main_v49 (idx_main_v50 (idx_main_v54 (ix5 n h v c f))) = ix4 n (shift h 1) (shift v 2) c :=
    funext fun a => match a with
      | ⟨0, _⟩ => rfl
      | ⟨1, _⟩ => Fin.ext (show 1 + h.val = h.val + 1 from Nat.add_comm 1 h.val)
      | ⟨2, _⟩ => Fin.ext (show 2 + v.val = v.val + 2 from Nat.add_comm 2 v.val)
      | ⟨3, _⟩ => rfl
  have hw : idx_main_v51 (idx_main_v52 (idx_main_v53 (idx_main_v55 (ix5 n h v c f))))
      = ix4 (1 : Fin 3) (2 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (1, 2): the reduction over the channel read at (n, h, v, f). -/
theorem tap_12 (x : FVec Ideal SX .f32) (w : FVec Ideal SW .f32) (n : Fin 16) (h v : Fin 126) (f : Fin 16) :
    val_main_v57 (F := Ideal) x w (ix4 n h v f) = tap x w n h v f 1 2 :=
  reduce_channels x w (val_main_v56 (F := Ideal) x w) 1 2 (fun n h v c f => term_12 x w n h v c f) n h v f

/-- Window offset (2, 0): the difference read at (n, h, v, c, f). -/
theorem term_20 (x : FVec Ideal SX .f32) (w : FVec Ideal SW .f32) (n : Fin 16) (h v : Fin 126) (c : Fin 3) (f : Fin 16) :
    val_main_v66 (F := Ideal) x w (ix5 n h v c f) = term x w n h v f 2 0 c := by
  rw [val_main_v66_apply, val_main_v64_apply, val_main_v60_apply, val_main_v59_apply,
    val_main_v65_apply, val_main_v63_apply, val_main_v62_apply, val_main_v61_apply]
  have hx : idx_main_v59 (idx_main_v60 (idx_main_v64 (ix5 n h v c f))) = ix4 n (shift h 2) (shift v 0) c :=
    funext fun a => match a with
      | ⟨0, _⟩ => rfl
      | ⟨1, _⟩ => Fin.ext (show 2 + h.val = h.val + 2 from Nat.add_comm 2 h.val)
      | ⟨2, _⟩ => Fin.ext (show v.val = v.val + 0 from rfl)
      | ⟨3, _⟩ => rfl
  have hw : idx_main_v61 (idx_main_v62 (idx_main_v63 (idx_main_v65 (ix5 n h v c f))))
      = ix4 (2 : Fin 3) (0 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (2, 0): the reduction over the channel read at (n, h, v, f). -/
theorem tap_20 (x : FVec Ideal SX .f32) (w : FVec Ideal SW .f32) (n : Fin 16) (h v : Fin 126) (f : Fin 16) :
    val_main_v67 (F := Ideal) x w (ix4 n h v f) = tap x w n h v f 2 0 :=
  reduce_channels x w (val_main_v66 (F := Ideal) x w) 2 0 (fun n h v c f => term_20 x w n h v c f) n h v f

/-- Window offset (2, 1): the difference read at (n, h, v, c, f). -/
theorem term_21 (x : FVec Ideal SX .f32) (w : FVec Ideal SW .f32) (n : Fin 16) (h v : Fin 126) (c : Fin 3) (f : Fin 16) :
    val_main_v76 (F := Ideal) x w (ix5 n h v c f) = term x w n h v f 2 1 c := by
  rw [val_main_v76_apply, val_main_v74_apply, val_main_v70_apply, val_main_v69_apply,
    val_main_v75_apply, val_main_v73_apply, val_main_v72_apply, val_main_v71_apply]
  have hx : idx_main_v69 (idx_main_v70 (idx_main_v74 (ix5 n h v c f))) = ix4 n (shift h 2) (shift v 1) c :=
    funext fun a => match a with
      | ⟨0, _⟩ => rfl
      | ⟨1, _⟩ => Fin.ext (show 2 + h.val = h.val + 2 from Nat.add_comm 2 h.val)
      | ⟨2, _⟩ => Fin.ext (show 1 + v.val = v.val + 1 from Nat.add_comm 1 v.val)
      | ⟨3, _⟩ => rfl
  have hw : idx_main_v71 (idx_main_v72 (idx_main_v73 (idx_main_v75 (ix5 n h v c f))))
      = ix4 (2 : Fin 3) (1 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (2, 1): the reduction over the channel read at (n, h, v, f). -/
theorem tap_21 (x : FVec Ideal SX .f32) (w : FVec Ideal SW .f32) (n : Fin 16) (h v : Fin 126) (f : Fin 16) :
    val_main_v77 (F := Ideal) x w (ix4 n h v f) = tap x w n h v f 2 1 :=
  reduce_channels x w (val_main_v76 (F := Ideal) x w) 2 1 (fun n h v c f => term_21 x w n h v c f) n h v f

/-- Window offset (2, 2): the difference read at (n, h, v, c, f). -/
theorem term_22 (x : FVec Ideal SX .f32) (w : FVec Ideal SW .f32) (n : Fin 16) (h v : Fin 126) (c : Fin 3) (f : Fin 16) :
    val_main_v86 (F := Ideal) x w (ix5 n h v c f) = term x w n h v f 2 2 c := by
  rw [val_main_v86_apply, val_main_v84_apply, val_main_v80_apply, val_main_v79_apply,
    val_main_v85_apply, val_main_v83_apply, val_main_v82_apply, val_main_v81_apply]
  have hx : idx_main_v79 (idx_main_v80 (idx_main_v84 (ix5 n h v c f))) = ix4 n (shift h 2) (shift v 2) c :=
    funext fun a => match a with
      | ⟨0, _⟩ => rfl
      | ⟨1, _⟩ => Fin.ext (show 2 + h.val = h.val + 2 from Nat.add_comm 2 h.val)
      | ⟨2, _⟩ => Fin.ext (show 2 + v.val = v.val + 2 from Nat.add_comm 2 v.val)
      | ⟨3, _⟩ => rfl
  have hw : idx_main_v81 (idx_main_v82 (idx_main_v83 (idx_main_v85 (ix5 n h v c f))))
      = ix4 (2 : Fin 3) (2 : Fin 3) c f :=
    funext fun a => match a with
      | ⟨0, _⟩ => rfl
      | ⟨1, _⟩ => rfl
      | ⟨2, _⟩ => Fin.ext (row_of_flat c f)
      | ⟨3, _⟩ => Fin.ext (col_of_flat c f)
  rw [hx, hw]; rfl

/-- Window offset (2, 2): the reduction over the channel read at (n, h, v, f). -/
theorem tap_22 (x : FVec Ideal SX .f32) (w : FVec Ideal SW .f32) (n : Fin 16) (h v : Fin 126) (f : Fin 16) :
    val_main_v87 (F := Ideal) x w (ix4 n h v f) = tap x w n h v f 2 2 :=
  reduce_channels x w (val_main_v86 (F := Ideal) x w) 2 2 (fun n h v c f => term_22 x w n h v c f) n h v f

/-! ## The fold of the nine, the reduction over the structuring element, and the result -/

/-- The nine reduced arrays folded with `min` one after the other hold at (n, h, v, f) the erosion by f: the fold is
    the grouping of the 27 terms by window offset, which associativity rearranges into `ero`. -/
theorem ero_read (x : FVec Ideal SX .f32) (w : FVec Ideal SW .f32) (n : Fin 16) (h v : Fin 126) (f : Fin 16) :
    val_main_v88 (F := Ideal) x w (ix4 n h v f) = ero x w n h v f := by
  rw [val_main_v88_apply, val_main_v78_apply, val_main_v68_apply, val_main_v58_apply, val_main_v48_apply,
    val_main_v38_apply, val_main_v28_apply, val_main_v18_apply,
    tap_00, tap_01, tap_02, tap_10, tap_11, tap_12, tap_20, tap_21, tap_22]
  exact grouped_eq_ero x w n h v f

/-- If an array over (n, h, v, f) holds at every index the erosion by f, its reduction over f with `max` from `-inf`
    holds at (n, h, v) the fold of `max` from `-inf` over the sixteen erosions: both sides are the same fold once the
    operand is read at (n, h, v, f). -/
theorem reduce_elements (x : FVec Ideal SX .f32) (w : FVec Ideal SW .f32) (E : FVec Ideal S16x126x126x16 .f32)
    (hE : ∀ (n : Fin 16) (h v : Fin 126) (f : Fin 16), E (ix4 n h v f) = ero x w n h v f)
    (n : Fin 16) (h v : Fin 126) :
    Host.reduce FloatOps.maximumf E (constant (F := Ideal) S_ .f32 0xFF800000#32)
      reducesTo_S16x126x126x16_S16x126x126_d3 h_S_ (ix3 n h v)
      = (Finset.univ : Finset (Fin 16)).fold max (Ideal.ofBits .f32 0xFF800000#32) (fun f => ero x w n h v f) := by
  have hr : S16x126x126x16.Reduces [3] S16x126x126 := by decide
  rw [Host.reduce_eq_fold_single FloatOps.maximumf E _ reducesTo_S16x126x126x16_S16x126x126_d3 hr h_S_]
  have hf : (E ∘ hr.lift (ix3 n h v)) = fun f : Fin 16 => ero x w n h v f :=
    funext fun k => (congrArg E (lift_element hr n h v k)).trans (hE n h v ⟨k.val, k.isLt⟩)
  exact congrArg (fun g => Finset.fold max (Ideal.ofBits .f32 0xFF800000#32) g (Finset.univ : Finset (Fin 16))) hf

/-- The reduction over f read at (n, h, v): the largest of the sixteen erosions, as the fold of `max` from `-inf`. -/
theorem max_read (x : FVec Ideal SX .f32) (w : FVec Ideal SW .f32) (n : Fin 16) (h v : Fin 126) :
    val_main_v89 (F := Ideal) x w (ix3 n h v)
      = (Finset.univ : Finset (Fin 16)).fold max (Ideal.ofBits .f32 0xFF800000#32) (fun f => ero x w n h v f) :=
  reduce_elements x w (val_main_v88 (F := Ideal) x w) (fun n h v f => ero_read x w n h v f) n h v

/-- The reference program's result is `out`: the appended axis has extent one, so the value at an index q is the
    reduction over f at (q 0, q 1, q 2), which is what `out` holds there. -/
theorem result_eq (x : FVec Ideal Cert.Erosion.SX .f32) (w : FVec Ideal Cert.Erosion.SW .f32) :
    Cert.ReferenceIdeal.Read.val_main_v90 (F := Ideal) x w = Cert.Erosion.out x w := by
  funext q
  have hq : idx_main_v90 q
      = ix3 (⟨(q 0).val, (q 0).isLt⟩ : Fin 16) (⟨(q 1).val, (q 1).isLt⟩ : Fin 126) (⟨(q 2).val, (q 2).isLt⟩ : Fin 126) :=
    funext fun a => match a with
      | ⟨0, _⟩ => rfl
      | ⟨1, _⟩ => rfl
      | ⟨2, _⟩ => rfl
  refine (val_main_v90_apply (F := Ideal) x w q).trans ?_
  refine (congrArg (val_main_v89 (F := Ideal) x w) hq).trans ?_
  exact max_read x w ⟨(q 0).val, (q 0).isLt⟩ ⟨(q 1).val, (q 1).isLt⟩ ⟨(q 2).val, (q 2).isLt⟩

end Cert.ReferenceIdeal.RefValue

end
-- ==== Proof.lean ====
/-
  Erosion by sixteen structuring elements followed by their largest, two ways.

  Both programs compute, for images x[n, r, s, c] and weights w[i, j, c, f],

      out (n, h, v, 0) = max over f of  min over (i, j, c) of  x[n, h + i, v + j, c] - w[i, j, c, f]      (h, v < 126).

  The kernel program re-lays each image with its channels before its columns, keeps for each image a running least of the
  27 differences in the order i, then j, then c, and takes the largest over f. The reference program takes, for each of the
  nine window offsets, the least over the three channels starting from `+inf`, folds the nine, and takes the largest over f
  starting from `-inf`. Over the extended reals subtraction, `min` and `max` are the same operations in both, `+inf` is
  neutral for `min`, and the 27 terms occur in the same order, so the two groupings agree by associativity of `min`
  alone (ErosionSpec); no finiteness of the inputs is used.

  KernelBlock / KernelBlockValue read what one grid point leaves in its output block; KernelRun lays the sixteen blocks
  into the array and reads the host lines around the region; ReferenceValue reads the reference program's stages at an
  index. The three frames are the programs' runs with the result dropped; the idealization rewrote nothing, so the
  fourth claim is trivial; the fifth pairs the two runs at the common value `out x w`.
-/
import proofs.«134567_j62861141344687_1_alg».proof.Defs
import proofs.«134567_j62861141344687_1_alg».proof.Proof.Gen.Kernel
import proofs.«134567_j62861141344687_1_alg».proof.Proof.Gen.Kernel.Skeleton
import proofs.«134567_j62861141344687_1_alg».proof.Proof.Gen.Kernel.Launch
import proofs.«134567_j62861141344687_1_alg».proof.Proof.Gen.Kernel.Points
import proofs.«134567_j62861141344687_1_alg».proof.Proof.Gen.Kernel.Frame
import proofs.«134567_j62861141344687_1_alg».proof.Proof.Gen.KernelIdeal
import proofs.«134567_j62861141344687_1_alg».proof.Proof.Gen.KernelIdeal.Skeleton
import proofs.«134567_j62861141344687_1_alg».proof.Proof.Gen.KernelIdeal.Launch
import proofs.«134567_j62861141344687_1_alg».proof.Proof.Gen.KernelIdeal.Points
import proofs.«134567_j62861141344687_1_alg».proof.Proof.Gen.KernelIdeal.Frame
import proofs.«134567_j62861141344687_1_alg».proof.Proof.Gen.ReferenceIdeal
import proofs.«134567_j62861141344687_1_alg».proof.Proof.Gen.Pre_finite_inputs
import proofs.«134567_j62861141344687_1_alg».proof.Proof.Gen.ReferenceIdeal.Run
import proofs.«134567_j62861141344687_1_alg».proof.Proof.Gen.ReferenceIdeal.Read
import proofs.«134567_j62861141344687_1_alg».proof.Proof.KernelRun
import proofs.«134567_j62861141344687_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference program's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `out x w` of the arguments they agree on. -/
theorem algebraic : Cert.algebraic_KernelIdeal_ReferenceIdeal := by
  intro m ρ m' ρ' _ hagree
  refine ⟨fun c => Cert.Erosion.out (Cert.KernelIdeal.RunValue.X m c) (Cert.KernelIdeal.RunValue.W m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
